-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x512 : Shape := ⟨2, ![16, 512]⟩
abbrev S1x32x3x1 : Shape := ⟨4, ![1, 32, 3, 1]⟩
abbrev S_ : Shape := ⟨0, ![]⟩

class Facts : Prop where
  bcast_S_S16x512 : S_.BroadcastsInDim S16x512 (![] : Fin 0 → Fin S16x512.rank)
  reducesTo_S16x512_S_d0_1 : S16x512.ReducesTo [0, 1] S_
  h_S_ : 0 < S_.numel
  bcast_S_S1x32x3x1 : S_.BroadcastsInDim S1x32x3x1 (![] : Fin 0 → Fin S1x32x3x1.rank)
  reducesTo_S1x32x3x1_S_d0_1_2_3 : S1x32x3x1.ReducesTo [0, 1, 2, 3] S_

variable [Facts]

def fn {F : FTy → Type} [FloatOps F] (main_arg0 : FVec F S16x512 .f32) (main_arg1 : FVec F S1x32x3x1 .f32) : IVec S_ 1 :=
  let main_v0 : FVec F S16x512 .f32 := Host.absf main_arg0
  let main_cst : FVec F S_ .f32 := constant S_ .f32 0x7F800000#32
  let main_v1 : FVec F S16x512 .f32 := broadcastInDim S16x512 ![] bcast_S_S16x512 main_cst
  let main_v2 : IVec S16x512 1 := cmpf .olt main_v0 main_v1
  let main_c : IVec S_ 1 := constantI S_ 1 1#1
  let main_v3 : IVec S_ 1 := (fun x v => Host.reduce IntOp.andi x v reducesTo_S16x512_S_d0_1 h_S_) main_v2 main_c
  let main_v4 : FVec F S1x32x3x1 .f32 := Host.absf main_arg1
  let main_cst_0 : FVec F S_ .f32 := constant S_ .f32 0x7F800000#32
  let main_v5 : FVec F S1x32x3x1 .f32 := broadcastInDim S1x32x3x1 ![] bcast_S_S1x32x3x1 main_cst_0
  let main_v6 : IVec S1x32x3x1 1 := cmpf .olt main_v4 main_v5
  let main_c_1 : IVec S_ 1 := constantI S_ 1 1#1
  let main_v7 : IVec S_ 1 := (fun x v => Host.reduce IntOp.andi x v reducesTo_S1x32x3x1_S_d0_1_2_3 h_S_) main_v6 main_c_1
  let main_v8 : IVec S_ 1 := andi main_v3 main_v7
  main_v8
-- ==== Kernel.lean ====
abbrev S16x512 : Shape := ⟨2, ![16, 512]⟩
abbrev S1x32x3x1 : Shape := ⟨4, ![1, 32, 3, 1]⟩
abbrev S1x32x1x1 : Shape := ⟨4, ![1, 32, 1, 1]⟩
abbrev S32 : Shape := ⟨1, ![32]⟩
abbrev S16x1x512 : Shape := ⟨3, ![16, 1, 512]⟩
abbrev S16x32x512x512 : Shape := ⟨4, ![16, 32, 512, 512]⟩
abbrev S1x1x256 : Shape := ⟨3, ![1, 1, 256]⟩
abbrev S1x32x256x256 : Shape := ⟨4, ![1, 32, 256, 256]⟩
abbrev S256 : Shape := ⟨1, ![256]⟩
abbrev S32x1x1 : Shape := ⟨3, ![32, 1, 1]⟩
abbrev S1x256x1 : Shape := ⟨3, ![1, 256, 1]⟩
abbrev S32x256x1 : Shape := ⟨3, ![32, 256, 1]⟩
abbrev S32x1x256 : Shape := ⟨3, ![32, 1, 256]⟩
abbrev S32x256x256 : Shape := ⟨3, ![32, 256, 256]⟩
abbrev S16x32x262144 : Shape := ⟨3, ![16, 32, 262144]⟩

abbrev nBuf : Space → Nat
  | .hbm => 11
  | .vmem => 9
  | .smem => 0
  | _ => 0

abbrev bufTy : (tb : Table) → Fin (tcTables nBuf tb) → BufTy
  | .hbm, ⟨0, _⟩ => ⟨S16x512, .f32⟩
  | .hbm, ⟨1, _⟩ => ⟨S1x32x3x1, .f32⟩
  | .hbm, ⟨2, _⟩ => ⟨S1x32x1x1, .f32⟩
  | .hbm, ⟨3, _⟩ => ⟨S32, .f32⟩
  | .hbm, ⟨4, _⟩ => ⟨S1x32x1x1, .f32⟩
  | .hbm, ⟨5, _⟩ => ⟨S32, .f32⟩
  | .hbm, ⟨6, _⟩ => ⟨S1x32x1x1, .f32⟩
  | .hbm, ⟨7, _⟩ => ⟨S32, .f32⟩
  | .hbm, ⟨8, _⟩ => ⟨S16x1x512, .f32⟩
  | .hbm, ⟨9, _⟩ => ⟨S16x32x512x512, .f32⟩
  | .hbm, ⟨10, _⟩ => ⟨S16x32x262144, .f32⟩
  | .local _ .vmem, ⟨0, _⟩ => ⟨S1x1x256, .f32⟩
  | .local _ .vmem, ⟨1, _⟩ => ⟨S1x1x256, .f32⟩
  | .local _ .vmem, ⟨2, _⟩ => ⟨S1x1x256, .f32⟩
  | .local _ .vmem, ⟨3, _⟩ => ⟨S1x1x256, .f32⟩
  | .local _ .vmem, ⟨4, _⟩ => ⟨S32, .f32⟩
  | .local _ .vmem, ⟨5, _⟩ => ⟨S32, .f32⟩
  | .local _ .vmem, ⟨6, _⟩ => ⟨S32, .f32⟩
  | .local _ .vmem, ⟨7, _⟩ => ⟨S1x32x256x256, .f32⟩
  | .local _ .vmem, ⟨8, _⟩ => ⟨S1x32x256x256, .f32⟩
  | _, _ => ⟨S16x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨3, ![16, 2, 2], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_2 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat, arg2.toNat]

abbrev stage0_0 : Fin 2 → Memref sig .tc .vmem S1x1x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 1 → Memref sig .tc .vmem S32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 1 → Memref sig .tc .vmem S32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1x32x256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

class Facts₀ : Prop where
  slices_S1x32x3x1_S1x32x1x1_0_0_0_0 : S1x32x3x1.Slices ![0, 0, 0, 0] S1x32x1x1
  shapeCasts_S1x32x1x1_S32 : S1x32x1x1.ShapeCasts S32
  slices_S1x32x3x1_S1x32x1x1_0_0_1_0 : S1x32x3x1.Slices ![0, 0, 1, 0] S1x32x1x1
  slices_S1x32x3x1_S1x32x1x1_0_0_2_0 : S1x32x3x1.Slices ![0, 0, 2, 0] S1x32x1x1
  shapeCasts_S16x512_S16x1x512 : S16x512.ShapeCasts S16x1x512
  inb_S1x1x256_S1x1x256_0_0_0 : ∀ a, (![0, 0, 0] : Fin 3 → Nat) a + S1x1x256.size a ≤ S1x1x256.size a
  h_S1x1x256 : 0 < S1x1x256.numel
  shapeCasts_S1x1x256_S256 : S1x1x256.ShapeCasts S256
  inb_S32_S32_0 : ∀ a, (![0] : Fin 1 → Nat) a + S32.size a ≤ S32.size a
  h_S32 : 0 < S32.numel
  shapeCasts_S32_S32 : S32.ShapeCasts S32
  shapeCasts_S32_S32x1x1 : S32.ShapeCasts S32x1x1
  shapeCasts_S256_S1x256x1 : S256.ShapeCasts S1x256x1
  broadcasts_S32x1x1_S32x256x1 : S32x1x1.Broadcasts S32x256x1
  broadcasts_S1x256x1_S32x256x1 : S1x256x1.Broadcasts S32x256x1
  shapeCasts_S256_S1x1x256 : S256.ShapeCasts S1x1x256
  broadcasts_S32x1x1_S32x1x256 : S32x1x1.Broadcasts S32x1x256
  broadcasts_S1x1x256_S32x1x256 : S1x1x256.Broadcasts S32x1x256
  broadcasts_S32x256x1_S32x256x256 : S32x256x1.Broadcasts S32x256x256
  broadcasts_S32x1x256_S32x256x256 : S32x1x256.Broadcasts S32x256x256
  broadcasts_S32x1x1_S32x256x256 : S32x1x1.Broadcasts S32x256x256
  inb_S1x32x256x256_S1x32x256x256_0_0_0_0 : ∀ a, (![0, 0, 0, 0] : Fin 4 → Nat) a + S1x32x256x256.size a ≤ S1x32x256x256.size a
  h_S1x32x256x256 : 0 < S1x32x256x256.numel
  shapeCasts_S1x32x256x256_S32x256x256 : S1x32x256x256.ShapeCasts S32x256x256
  shapeCasts_S32x256x256_S1x32x256x256 : S32x256x256.ShapeCasts S1x32x256x256
  shapeCasts_S16x32x512x512_S16x32x262144 : S16x32x512x512.ShapeCasts S16x32x262144
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x256.size a ≤ S16x1x512.size a
  hwx0_0 : ∀ i : grid0.Coords, EltTy.bits .f32 = 32 ∨ (Rect.block (s := S16x1x512) S1x1x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x256.size a ≤ S16x1x512.size a
  hwx0_1 : ∀ i : grid0.Coords, EltTy.bits .f32 = 32 ∨ (Rect.block (s := S16x1x512) S1x1x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32.size a ≤ S32.size a
  hwx0_2 : ∀ i : grid0.Coords, EltTy.bits .f32 = 32 ∨ (Rect.block (s := S32) S32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32.size a ≤ S32.size a
  hwx0_3 : ∀ i : grid0.Coords, EltTy.bits .f32 = 32 ∨ (Rect.block (s := S32) S32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32.size a ≤ S32.size a
  hwx0_4 : ∀ i : grid0.Coords, EltTy.bits .f32 = 32 ∨ (Rect.block (s := S32) S32.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x32x256x256.size a ≤ S16x32x512x512.size a
  hwx0_5 : ∀ i : grid0.Coords, EltTy.bits .f32 = 32 ∨ (Rect.block (s := S16x32x512x512) S1x32x256x256.size (cc0_transform_5 i) (hinb0_5 i)).WholeWords (EltTy.packing .f32)

variable [Facts₀]

abbrev win0_0 : Pipeline.Window sig grid0 :=
  Pipeline.Window.ofSpec (Memref.whole main_v6) S1x1x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S1x1x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S1x32x256x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16x512 : Shape := ⟨2, ![16, 512]⟩
abbrev S1x32x3x1 : Shape := ⟨4, ![1, 32, 3, 1]⟩
abbrev S1x32x1x1 : Shape := ⟨4, ![1, 32, 1, 1]⟩
abbrev S32 : Shape := ⟨1, ![32]⟩
abbrev S16x1x512x1 : Shape := ⟨4, ![16, 1, 512, 1]⟩
abbrev S16x32x512x1 : Shape := ⟨4, ![16, 32, 512, 1]⟩
abbrev S16x1x1x512 : Shape := ⟨4, ![16, 1, 1, 512]⟩
abbrev S16x32x1x512 : Shape := ⟨4, ![16, 32, 1, 512]⟩
abbrev S16x32x512x512 : Shape := ⟨4, ![16, 32, 512, 512]⟩
abbrev S_ : Shape := ⟨0, ![]⟩
abbrev S16x32x262144 : Shape := ⟨3, ![16, 32, 262144]⟩

abbrev nBuf : Space → Nat
  | .hbm => 28
  | .vmem => 0
  | .smem => 0
  | _ => 0

abbrev bufTy : (tb : Table) → Fin (tcTables nBuf tb) → BufTy
  | .hbm, ⟨0, _⟩ => ⟨S16x512, .f32⟩
  | .hbm, ⟨1, _⟩ => ⟨S1x32x3x1, .f32⟩
  | .hbm, ⟨2, _⟩ => ⟨S1x32x1x1, .f32⟩
  | .hbm, ⟨3, _⟩ => ⟨S32, .f32⟩
  | .hbm, ⟨4, _⟩ => ⟨S1x32x1x1, .f32⟩
  | .hbm, ⟨5, _⟩ => ⟨S32, .f32⟩
  | .hbm, ⟨6, _⟩ => ⟨S1x32x1x1, .f32⟩
  | .hbm, ⟨7, _⟩ => ⟨S32, .f32⟩
  | .hbm, ⟨8, _⟩ => ⟨S1x32x1x1, .f32⟩
  | .hbm, ⟨9, _⟩ => ⟨S16x1x512x1, .f32⟩
  | .hbm, ⟨10, _⟩ => ⟨S16x32x512x1, .f32⟩
  | .hbm, ⟨11, _⟩ => ⟨S16x32x512x1, .f32⟩
  | .hbm, ⟨12, _⟩ => ⟨S16x32x512x1, .f32⟩
  | .hbm, ⟨13, _⟩ => ⟨S1x32x1x1, .f32⟩
  | .hbm, ⟨14, _⟩ => ⟨S16x1x1x512, .f32⟩
  | .hbm, ⟨15, _⟩ => ⟨S16x32x1x512, .f32⟩
  | .hbm, ⟨16, _⟩ => ⟨S16x32x1x512, .f32⟩
  | .hbm, ⟨17, _⟩ => ⟨S16x32x1x512, .f32⟩
  | .hbm, ⟨18, _⟩ => ⟨S16x32x512x512, .f32⟩
  | .hbm, ⟨19, _⟩ => ⟨S16x32x512x512, .f32⟩
  | .hbm, ⟨20, _⟩ => ⟨S16x32x512x512, .f32⟩
  | .hbm, ⟨21, _⟩ => ⟨S1x32x1x1, .f32⟩
  | .hbm, ⟨22, _⟩ => ⟨S16x32x512x512, .f32⟩
  | .hbm, ⟨23, _⟩ => ⟨S16x32x512x512, .f32⟩
  | .hbm, ⟨24, _⟩ => ⟨S_, .f32⟩
  | .hbm, ⟨25, _⟩ => ⟨S16x32x512x512, .f32⟩
  | .hbm, ⟨26, _⟩ => ⟨S16x32x512x512, .f32⟩
  | .hbm, ⟨27, _⟩ => ⟨S16x32x262144, .f32⟩
  | _, _ => ⟨S16x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_call0_cst : Ref sig .tc := ⟨.hbm, 24, rfl⟩
abbrev main_call0_v0 : Ref sig .tc := ⟨.hbm, 25, rfl⟩
abbrev main_v22 : Ref sig .tc := ⟨.hbm, 26, rfl⟩
abbrev main_v23 : Ref sig .tc := ⟨.hbm, 27, rfl⟩

abbrev nD : Nat := 1
abbrev τ : Topo := Topo.v7x

variable {F : FTy → Type} [FloatOps F]

class Facts₀ : Prop where
  slices_S1x32x3x1_S1x32x1x1_0_0_0_0 : S1x32x3x1.Slices ![0, 0, 0, 0] S1x32x1x1
  shapeCasts_S1x32x1x1_S32 : S1x32x1x1.ShapeCasts S32
  slices_S1x32x3x1_S1x32x1x1_0_0_1_0 : S1x32x3x1.Slices ![0, 0, 1, 0] S1x32x1x1
  slices_S1x32x3x1_S1x32x1x1_0_0_2_0 : S1x32x3x1.Slices ![0, 0, 2, 0] S1x32x1x1
  bcast_S32_S1x32x1x1_1 : S32.BroadcastsInDim S1x32x1x1 (![1] : Fin 1 → Fin S1x32x1x1.rank)
  bcast_S16x512_S16x1x512x1_0_2 : S16x512.BroadcastsInDim S16x1x512x1 (![0, 2] : Fin 2 → Fin S16x1x512x1.rank)
  bcast_S1x32x1x1_S16x32x512x1_0_1_2_3 : S1x32x1x1.BroadcastsInDim S16x32x512x1 (![0, 1, 2, 3] : Fin 4 → Fin S16x32x512x1.rank)
  bcast_S16x1x512x1_S16x32x512x1_0_1_2_3 : S16x1x512x1.BroadcastsInDim S16x32x512x1 (![0, 1, 2, 3] : Fin 4 → Fin S16x32x512x1.rank)
  bcast_S16x512_S16x1x1x512_0_3 : S16x512.BroadcastsInDim S16x1x1x512 (![0, 3] : Fin 2 → Fin S16x1x1x512.rank)
  bcast_S1x32x1x1_S16x32x1x512_0_1_2_3 : S1x32x1x1.BroadcastsInDim S16x32x1x512 (![0, 1, 2, 3] : Fin 4 → Fin S16x32x1x512.rank)
  bcast_S16x1x1x512_S16x32x1x512_0_1_2_3 : S16x1x1x512.BroadcastsInDim S16x32x1x512 (![0, 1, 2, 3] : Fin 4 → Fin S16x32x1x512.rank)
  bcast_S16x32x512x1_S16x32x512x512_0_1_2_3 : S16x32x512x1.BroadcastsInDim S16x32x512x512 (![0, 1, 2, 3] : Fin 4 → Fin S16x32x512x512.rank)
  bcast_S16x32x1x512_S16x32x512x512_0_1_2_3 : S16x32x1x512.BroadcastsInDim S16x32x512x512 (![0, 1, 2, 3] : Fin 4 → Fin S16x32x512x512.rank)
  bcast_S1x32x1x1_S16x32x512x512_0_1_2_3 : S1x32x1x1.BroadcastsInDim S16x32x512x512 (![0, 1, 2, 3] : Fin 4 → Fin S16x32x512x512.rank)
  bcast_S_S16x32x512x512 : S_.BroadcastsInDim S16x32x512x512 (![] : Fin 0 → Fin S16x32x512x512.rank)
  shapeCasts_S16x32x512x512_S16x32x262144 : S16x32x512x512.ShapeCasts S16x32x262144

variable [Facts₀]

class Facts : Prop extends Facts₀ where

variable [Facts]
-- ==== Proof.KData.lean ====
/-
  The proof data of the one pipelined kernel region, on each core: what the region finds in the arrays its
  windows stage, what each window's staging buffer holds after the body at each grid point, and at which share
  each input array is held.

  The region has six windows. Windows 0 and 1 both stage the positions array (reshaped to [16, 1, 512] by the host
  line before the region): window 0 the 256-wide block of row `b` that the point's second coordinate selects,
  window 1 the block its third coordinate selects. Windows 2, 3 and 4 stage the three coefficient vectors whole,
  window 5 is the result's [1, 32, 256, 256] block. The body loads the five input blocks and stores ONE value
  covering the whole output block, so after the body every input buffer still holds its block and the output
  buffer holds that value of the five blocks. Because two input windows read one array, that array is held at
  two halves of the full share, one per window; every other input array at the full share.
-/
import proofs.«100812_j32358283608329_1_alg».proof.Proof.Gen.Kernel.Launch
import proofs.«100812_j32358283608329_1_alg».proof.Proof.Gen.Kernel.Skeleton
import proofs.«100812_j32358283608329_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The arrays as the region finds them -/

/-- Core `c`'s buffers at launch, as a valuation; -/
abbrev V₀ (c : Dev nD) : Valuation τ sig (Elt F) := fun b => m (c, b)

/-- and when the region is entered: the seven host lines before it have run (three slices of the coefficient
    array, their reshapes to vectors, and the reshape of the positions array). -/
abbrev V (c : Dev nD) (b : Ref sig .tc) : Buf (Elt F) ((c : Thread nD τ).loc b) := StableHlo.after hostOps0 (V₀ m c) b

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## What the body leaves in the output window's buffer -/

/-- The whole of a positions block, of a coefficient vector, of the output block: the rectangles the body loads
    and stores through. -/
abbrev rT : Rect S1x1x256 := Rect.unit (s := S1x1x256) ![0, 0, 0] S1x1x256.size inb_S1x1x256_S1x1x256_0_0_0
abbrev rW : Rect S32 := Rect.unit (s := S32) ![0] S32.size inb_S32_S32_0
abbrev rO : Rect S1x32x256x256 := Rect.unit (s := S1x32x256x256) ![0, 0, 0, 0] S1x32x256x256.size inb_S1x32x256x256_S1x32x256x256_0_0_0_0

/-- The output buffer after the body, from the five input blocks: its one store, read back as a whole. -/
def outBlk (x0 x1 : Vec F S1x1x256 .f32) (x2 x3 x4 : Vec F S32 .f32) : Vec F S1x32x256x256 .f32 :=
  View.canon [⟨rO, k0_pay1 (View.ld x0 rT) (View.ld x1 rT) (View.ld x2 rW) (View.ld x3 rW) (View.ld x4 rW)⟩]

/-- The one store covers the buffer. -/
theorem cover_out (p0 : Vec F S1x32x256x256 .f32) (y : S1x32x256x256.Idx) :
    ∃ pc ∈ ([⟨rO, p0⟩] : List (View.Piece (Elt F) S1x32x256x256 .f32)), y ∈ pc.1.set :=
  View.cover_of_tiled [⟨rO, p0⟩] S1x32x256x256.size (by rfl) y

/-! ## The proof data -/

/-- On core `c`: the arrays as the region finds them; after the body at point `t` each input buffer at its block and
    the output buffer at `outBlk` of the five blocks; between points only the core's other scoped buffers (there is
    none); the positions array, read by windows 0 and 1, at the left and the right half of the full share;
    nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outBlk (iblk m c 0 t) (iblk m c 1 t) (iblk m c 2 t) (iblk m c 3 t) (iblk m c 4 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) :
    (dats m 0 c).after 5 t = outBlk (iblk m c 0 t) (iblk m c 1 t) (iblk m c 2 t) (iblk m c 3 t) (iblk m c 4 t) := by dsimp only [dats]

/-! ## Each input buffer holds its block when the body runs

An input window's current staging buffer holds the array's block at the point whether the pipeline fetched it
there or not: not fetched means the block index did not move since the last fetch, and the body left the block in
place. -/

theorem before0_0 (c : Dev nD) (t : Fin cfg0.N) (d) : (dats m 0 c).before 0 t d = iblk m c 0 t :=
  ((dats m 0 c).before_in_eq_fetched 0 rfl (fun _ => rfl) (fun _ _ _ => rfl)
      (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl)
      (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl)
      (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl)
      (fun t => by rw [after0_3]; unfold Dat.blockOf iblk; rw [A_eq]; try rfl) t d).trans
    (by unfold Dat.fetched Dat.blockOf iblk; rw [A_eq]; try rfl)
theorem before0_4 (c : Dev nD) (t : Fin cfg0.N) (d) : (dats m 0 c).before 4 t d = iblk m c 4 t :=
  ((dats m 0 c).before_in_eq_fetched 4 rfl (fun _ => rfl) (fun _ _ _ => rfl)
      (fun t => by rw [after0_4]; unfold Dat.blockOf iblk; rw [A_eq]; try rfl) t d).trans
    (by unfold Dat.fetched Dat.blockOf iblk; rw [A_eq]; try rfl)

end Cert.Kernel.Hand

end
-- ==== Proof.KBody.lean ====
/-
  The kernel body at one grid point. Run on six whole staging buffers — the two position blocks, the three
  coefficient vectors and the output block at any contents — it loads the five input blocks (and, unused, the
  output buffer), and stores one value over the whole output buffer; it ends holding every input buffer as it was
  and the output buffer at that value of the five blocks. With the inputs' buffers holding their blocks at every
  point, this is the pipeline's body obligation: the invariant between points and what the core owes pass
  through untouched.
-/
import proofs.«100812_j32358283608329_1_alg».proof.Proof.KData

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 1000000 in
/-- The body on whole staging buffers: the inputs' at contents `x0 … x4`, the output's at anything. -/
theorem sound_kernel (c : Dev nD) (E : Set ℕ) (i : grid0.Coords)
    (arg3 : Memref sig .tc .vmem S1x1x256 .f32) (harg3 : arg3.IsWhole) (arg4 : Memref sig .tc .vmem S1x1x256 .f32) (harg4 : arg4.IsWhole)
    (arg5 : Memref sig .tc .vmem S32 .f32) (harg5 : arg5.IsWhole) (arg6 : Memref sig .tc .vmem S32 .f32) (harg6 : arg6.IsWhole)
    (arg7 : Memref sig .tc .vmem S32 .f32) (harg7 : arg7.IsWhole) (arg8 : Memref sig .tc .vmem S1x32x256x256 .f32) (harg8 : arg8.IsWhole)
    (x0 x1 : Vec F S1x1x256 .f32) (x2 x3 x4 : Vec F S32 .f32) (K : PUnit → sProp 𝕄) :
    iprop(owns (c : Thread nD τ) arg3 fullShare x0 ∗ owns (c : Thread nD τ) arg4 fullShare x1
        ∗ owns (c : Thread nD τ) arg5 fullShare x2 ∗ owns (c : Thread nD τ) arg6 fullShare x3 ∗ owns (c : Thread nD τ) arg7 fullShare x4
        ∗ (∃ d, owns (c : Thread nD τ) arg8 fullShare d)
        ∗ (iprop(owns (c : Thread nD τ) arg3 fullShare x0 ∗ owns (c : Thread nD τ) arg4 fullShare x1
            ∗ owns (c : Thread nD τ) arg5 fullShare x2 ∗ owns (c : Thread nD τ) arg6 fullShare x3 ∗ owns (c : Thread nD τ) arg7 fullShare x4
            ∗ owns (c : Thread nD τ) arg8 fullShare (outBlk x0 x1 x2 x3 x4)) -∗ K ⟨⟩))
      ⊢ wp frame (wpE (defs₀ (F := F)) Variants.none c none) E
          (cc0__pairwise_kernel i arg3 harg3 arg4 harg4 arg5 harg5 arg6 harg6 arg7 harg7 arg8 harg8) K := by
  simp only [cc0__pairwise_kernel_eq_skeleton]; unfold cc0__pairwise_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover_out _)

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the inputs' buffers hold their blocks, so `sound_kernel` applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _
    (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.KLaunch.lean ====
/-
  The launch: @main is seven host lines, the kernel region, and one host line (the reshape of the region's
  result). It is run as that list of three segments. The thread state between segments is a set of whole
  buffers held at a valuation, beside what the core owes (nothing).

  Entering the region, the unscoped buffers are sorted: the five buffers behind the windows' arrays become the
  pipeline's arrays — the positions array, which two input windows read, split into the two halves of its full
  share, one per window — and of the rest the two argument arrays and the final result's buffer bypass the region.
  Leaving it, only what the last line needs is kept whole: the region's result at what the write-backs left and
  the final result's buffer; the argument arrays ride along untouched; everything else is let go. The last line
  then writes the reshape of the region's result, and the final state is read off those four buffers.
-/
import proofs.«100812_j32358283608329_1_alg».proof.Proof.KBody
import Idealize.ShloMosaic.Lib.Pipeline.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's arrays, window by window -/

/-- The pipeline's arrays at contents `G`: the positions array twice, at the two halves of the full share, then the
    three coefficient vectors and the region's result, each at the full share. -/
theorem arrays_list (c : Dev nD) (G : (w : Fin cfg0.W) → Buf (Elt F) ((cfg0.win w).arr.view.loc (c : Thread nD τ))) :
    ((dats m 0 c).arrays G : sProp 𝕄)
      = iprop((((c : Thread nD τ).loc main_v6) ↦{fullShare.left} G 0) ∗ (((c : Thread nD τ).loc main_v6) ↦{fullShare.right} G 1)
          ∗ (((c : Thread nD τ).loc main_v1) ↦{fullShare} G 2) ∗ (((c : Thread nD τ).loc main_v3) ↦{fullShare} G 3)
          ∗ (((c : Thread nD τ).loc main_v5) ↦{fullShare} G 4) ∗ (((c : Thread nD τ).loc main_v7) ↦{fullShare} G 5)) := by
  have hs : ∀ w : Fin 6, (cfg0.win w).arr.view.set = Finset.univ := fun w => (arr_whole0 w).set_eq_univ
  unfold Dat.arrays
  rw [bigSep_W0, hs 0, hs 2, hs 3, hs 4, hs 5,
    show (dats m 0 c).share 0 = fullShare.left from rfl, show (dats m 0 c).share 1 = fullShare.right from rfl,
    show (dats m 0 c).share 2 = fullShare from rfl, show (dats m 0 c).share 3 = fullShare from rfl,
    show (dats m 0 c).share 4 = fullShare from rfl, show (dats m 0 c).share 5 = fullShare from rfl]

/-- The buffers behind the windows' arrays, each once. -/
theorem arrBufs_list (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_v6) ↦{fullShare} W main_v6) ∗ (((c : Thread nD τ).loc main_v1) ↦{fullShare} W main_v1)
          ∗ (((c : Thread nD τ).loc main_v3) ↦{fullShare} W main_v3) ∗ (((c : Thread nD τ).loc main_v5) ↦{fullShare} W main_v5)
          ∗ (((c : Thread nD τ).loc main_v7) ↦{fullShare} W main_v7)) := by
  unfold Pipeline.arrBufs
  exact bigSep_eq_bigSepL_of_eq [main_v6, main_v1, main_v3, main_v5, main_v7] (by decide) (by decide) _

/-- ENTRY, the arrays' part: the unscoped buffers as the region finds them are the pipeline's arrays at their entry
    contents — the positions array's full share split between its two windows — and the unscoped rest. -/
theorem entry_split (c : Dev nD) :
    (unscopedBufs c (V m c) : sProp 𝕄)
      ⊢ iprop((dats m 0 c).arrays ((dats m 0 c).arrAt · 0) ∗ Pipeline.unscopedRest spec0 c (V m c)) := by
  rw [Pipeline.unscopedBufs_split₀ cfgs 0 winFacts₀0.arr_unscoped c (V m c), arrBufs_list, arrays_list]
  iintro ⟨⟨H6, H1, H3, H5, H7⟩, Hr⟩
  isplitr [Hr]; swap; · iexact Hr
  ihave H6' := (pointsTo_share (PosShare.mem_left_op_right fullShare)).1 $$ H6
  icases H6' with ⟨H6l, H6r⟩
  isplitl [H6l]; · iexact H6l
  isplitl [H6r]; · iexact H6r
  isplitl [H1]; · iexact H1
  isplitl [H3]; · iexact H3
  isplitl [H5]; · iexact H5
  iexact H7

/-! ## The segments -/

abbrev 𝒱₀ : Variants := Variants.none
/-- No core owes another anything: no level is assigned. -/
abbrev L : GSem nD τ sig → Finset Unit := fun _ => ∅
abbrev lv : GSem nD τ sig → Unit → ℕ := fun _ _ => 0
/-- No prefetched table. -/
abbrev adm : (p : Fin 1) → (pcfgs (F := F) p).Adm := fun p => (cfgs p).toPCfg_adm

/-- What rides beside the buffers: the core owes nothing. -/
abbrev R (c : Dev nD) : sProp 𝕄 := iprop(∃ W, owes (c : Thread nD τ) (0 : CellTallies nD τ sig Unit) W)

/-- The two argument arrays, as the region found them: they bypass the region and the last line. -/
abbrev Keep (c : Dev nD) : sProp 𝕄 :=
  iprop((((c : Thread nD τ).loc main_arg0) ↦{fullShare} V m c main_arg0) ∗ (((c : Thread nD τ).loc main_arg1) ↦{fullShare} V m c main_arg1))

theorem hostOps0_fresh : ∀ op ∈ (hostOps0 : List (HloOp τ sig (Elt F))), op.fresh = ∅ := by
  intro _ h; (repeat (cases h with | head => rfl | tail _ h => ?_)); exact nomatch h
theorem hostOps1_fresh : ∀ op ∈ (hostOps1 : List (HloOp τ sig (Elt F))), op.fresh = ∅ := by
  intro _ h; (repeat (cases h with | head => rfl | tail _ h => ?_)); exact nomatch h

/-- THE FIRST HOST SEGMENT: the seven lines before the region, over all the unscoped buffers. -/
def seg0 : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h)) hostOps0_fresh (V₀ m) R

/-- The two buffers the last line touches: the region's result and the final result. -/
abbrev S1 : Finset (DevRef τ sig) := {Proc.devRef .tc main_v7, Proc.devRef .tc main_v8}

/-- Core `c`'s buffers when the region is left: its result at what the write-backs left, the rest as it was found. -/
def W₁ (c : Dev nD) : Valuation τ sig (Elt F) :=
  Function.update (StableHlo.after hostOps0 (V₀ m c)) (Proc.devRef .tc main_v7) ((dats m 0 c).arrAt 5 cfg0.N)

theorem W₁_v7 (c : Dev nD) : W₁ m c (Proc.devRef .tc main_v7) = (dats m 0 c).arrAt 5 cfg0.N := by
  unfold W₁; exact Function.update_self ..
theorem W₁_v8 (c : Dev nD) : W₁ m c (Proc.devRef .tc main_v8) = V m c main_v8 := by
  unfold W₁; exact Function.update_of_ne (by decide) ..

/-- The two buffers held at a valuation, one by one. -/
theorem held_S1 (c : Dev nD) (W : Valuation τ sig (Elt F)) :
    (StableHlo.held (c : Thread nD τ) S1 W : sProp 𝕄)
      = iprop((((c : Thread nD τ).loc main_v7) ↦{fullShare} W (Proc.devRef .tc main_v7))
          ∗ (((c : Thread nD τ).loc main_v8) ↦{fullShare} W (Proc.devRef .tc main_v8))) := by
  unfold StableHlo.held S1
  rw [bigSep_insert (by decide), bigSep_singleton]
  rfl

/-- THE LAST HOST SEGMENT: the reshape of the region's result, over those two buffers. -/
def seg1 : Pipeline.HostSeg (Name := ℕ) (U := UR sig nD τ) (pcfgs (F := F)) defs₀ 𝒱₀ L lv :=
  Pipeline.HostSeg.ofOps _ _ _ _ _ S1 hostOps1
    (by intro op h; cases h with | head => exact (StableHlo.reshape_bufs ..).subset | tail _ h => exact nomatch h) hostOps1_fresh (W₁ m)
    (fun c => iprop(Keep m c ∗ R c))

-- an entailment of a launch lemma stated over `cfgs p` at the pinned configuration unifies only when unification may
-- unfold plain definitions in a metavariable's type
set_option backward.isDefEq.respectTransparency.types false in
/-- THE REGION: the decided layout (the windows may share an array), no semaphore of the kernel's own, the body
    obligation; entered from what the first segment left, left with what the last segment takes. -/
def reg0 : Pipeline.RegionSeg (pcfgs (F := F)) adm (dats m) () defs₀ 𝒱₀ L lv 0 where
  win := winFacts₀0
  block_pos := block_pos0
  stage_whole := stage_whole0
  K := PEmpty
  osem := fun k => k.elim
  ho := Pipeline.OwnSemFacts.none _
  hbody c := (body_obligation m c).loose
  hwaits := Pipeline.hwaits_of_owed_zero _ _ _ _ L lv 0 fun _ _ => rfl
  pre c := iprop(StableHlo.held (c : Thread nD τ) (Pipeline.ucRefs τ sig) (StableHlo.after hostOps0 (V₀ m c)) ∗ R c)
  post c := iprop(StableHlo.held (c : Thread nD τ) S1 (W₁ m c) ∗ (Keep m c ∗ R c))
  X _ := iprop(emp)
  Y _ := iprop(emp)
  Z c := iprop(Keep m c ∗ (((c : Thread nD τ).loc main_v8) ↦{fullShare} V m c main_v8))
  hentry c := by
    rw [show StableHlo.held (c : Thread nD τ) (Pipeline.ucRefs τ sig) (StableHlo.after hostOps0 (V₀ m c)) = unscopedBufs c (V m c)
      from (Pipeline.unscopedBufs_held c _).symm]
    have hsplit := (entry_split m c).trans (sep_mono .rfl (Entails.of_eq (unscopedRest0_eq c (V m c))))
    iintro ⟨⟨Hub, HO⟩, -, -⟩
    ihave H := hsplit $$ Hub
    icases H with ⟨Ha, H0, H1, -, -, -, H8⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [H0 H1]
    · isplitl [H0]; · iexact H0
      iexact H1
    iexact H8
  hin c := by
    rw [show (dats m 0 c).Φ 0 = Pipeline.scopedRest (Ix := Unit) (Name := ℕ) (U := UR sig nD τ) (Lvl := ℕ) (Val := Elt F) spec0 c from rfl]
    iintro ⟨-, -, Hr⟩
    iexact Hr
  hout c := by
    rw [Pipeline.ownSems0_none, show (dats m 0 c).Φ (Fin.last cfg0.N) = Pipeline.scopedRest (Ix := Unit) (Name := ℕ) (U := UR sig nD τ) (Lvl := ℕ) (Val := Elt F) spec0 c from rfl]
    iintro Hr
    isplitr; · iempintro
    isplitr; · iempintro
    iexact Hr
  hexit c := by
    rw [arrays_list, held_S1, W₁_v7, W₁_v8]
    iintro ⟨⟨-, -, -, -, -, H7⟩, HO, -, ⟨HK, H8⟩⟩
    imodintro
    isplitl [H7 H8]
    · isplitl [H7]; · iexact H7
      iexact H8
    isplitl [HK]; · iexact HK
    unfold Pipeline.Dat.owesAt Pipeline.owesWithin
    icases HO with ⟨%W, -, HO⟩; iexists W; iexact HO

/-- @main as the list of the three. -/
abbrev segs : List (Pipeline.Seg (pcfgs (F := F)) adm (dats m) () defs₀ 𝒱₀ L lv) := [.host (seg0 m), .region (reg0 m), .host (seg1 m)]

/-! ## The run -/

/-- The final result as the last line leaves it: the reshape of the region's result. -/
theorem after_v8 (c : Dev nD) :
    StableHlo.after hostOps1 (W₁ m c) (Proc.devRef .tc main_v8)
      = shapeCast S16x32x262144 ((dats m 0 c).arrAt 5 cfg0.N) shapeCasts_S16x32x512x512_S16x32x262144 := by
  rw [← W₁_v7]
  after_results <;> rfl

/-- What is read of a final state on core `c`: the region's arrays are not read (they were let go); the final result
    is the reshape of the region's result, and the argument arrays are as the region found them. -/
def QYc (c : Dev nD) (s : MemSt nD τ sig (Elt F)) : Prop :=
  s.mem ((c : Thread nD τ).loc main_v8) = shapeCast S16x32x262144 ((dats m 0 c).arrAt 5 cfg0.N) shapeCasts_S16x32x512x512_S16x32x262144
    ∧ s.mem ((c : Thread nD τ).loc main_arg0) = V m c main_arg0
    ∧ s.mem ((c : Thread nD τ).loc main_arg1) = V m c main_arg1

/-- The last thread state. -/
abbrev Tₙ (c : Dev nD) : sProp 𝕄 :=
  iprop(StableHlo.held (c : Thread nD τ) S1 (StableHlo.after hostOps1 (W₁ m c)) ∗ Keep m c)

set_option backward.isDefEq.respectTransparency.types false in
/-- At the compiled mesh, for any float values, from any memory with zero counters: every weakly fair execution of
    @main on the TensorCores terminates, and every final state has the final result at the reshape of what the
    region's write-backs left and the two argument arrays as the region found them. -/
theorem run_main : θ_run defs (onTc (τ := τ) (main (F := F))) (s₀ m ρ) (fun r => ∀ c : Dev nD, QYc m c r.2) :=
  Pipeline.θ_run_regions_kit (pcfgs (F := F)) adm (dats m) () cellOf_inj emb₁ defs₀ 𝒱₀ L lv m ρ main (segs m)
    (fun c Q => by rw [main_segs adm (dats m) () 𝒱₀ L lv (seg0 m) (seg1 m) (reg0 m) rfl rfl c])
    (by simp only [Pipeline.Seg.pipes_host, Pipeline.Seg.pipes_region, Pipeline.Seg.pipes_nil]; decide) (O₀ := 0) (hL := fun _ _ => rfl) (G := fun _ => iprop(emp))
    (u₀ := initOf (Pipeline.cells (Pipeline.pin (pcfgs (F := F)) adm) cellOf_inj) (Pipeline.launchToks (Pipeline.pin (pcfgs (F := F)) adm) cellOf_inj))
    (hu₀ := by
      iintro Hu
      imodintro
      isplitl [Hu]; · iapply (show (ownU _ : sProp 𝕄) ⊢ BI.own (emb₁ _) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V₀ m c) ∗ R c)) (Tₙ := Tₙ m)
    (hch := ⟨fun _ => .rfl, fun _ => .rfl, fun _ => .rfl, fun c => by
      show iprop(StableHlo.held (c : Thread nD τ) S1 (StableHlo.after hostOps1 (W₁ m c)) ∗ (Keep m c ∗ R c))
        ⊢ iprop(Tₙ m c ∗ ∃ W, owes (c : Thread nD τ) (0 : CellTallies nD τ sig Unit) W)
      iintro ⟨Hh, HK, HO⟩
      isplitr [HO]; swap; · iexact HO
      isplitl [Hh]; · iexact Hh
      iexact HK⟩)
    (hinit := by
      refine Pipeline.initEach L lv fun c => ?_
      rw [show unscopedBufs c (fun b => m ((c : Thread nD τ).loc b)) = StableHlo.held (c : Thread nD τ) (Pipeline.ucRefs τ sig) (V₀ m c)
        from Pipeline.unscopedBufs_held c (V₀ m c)]
      iintro ⟨⟨Hh, -, HO, -, -, -⟩, -⟩
      imodintro
      isplitl [Hh]; · iexact Hh
      iexists ∅; iexact HO)
    (QY := QYc m)
    (hfin := fun c s' => by
      dsimp only [Tₙ, Keep]; rw [held_S1, after_v8]
      iintro ⟨⟨⟨-, H8⟩, H0, H1⟩, HSI⟩
      icombine HSI H8 gives %h8
      icombine HSI H0 gives %h0
      icombine HSI H1 gives %h1
      imodintro
      isplitr; · ipureintro; exact ⟨Buf.eq_of_forall_mem_univ h8, Buf.eq_of_forall_mem_univ h0, Buf.eq_of_forall_mem_univ h1⟩
      iexact HSI)
    (hQ := fun _ h => h)

/-! ## The argument arrays, and the two runs the claims cite -/

/-- No host line before the region writes the positions array: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, StableHlo.reshape_writes, Finset.mem_singleton]
    repeat' apply And.intro
    all_goals exact StableHlo.devRef_ne_of_ne (by decide)))
/-- Nor the coefficient array. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, StableHlo.reshape_writes, Finset.mem_singleton]
    repeat' apply And.intro
    all_goals exact StableHlo.devRef_ne_of_ne (by decide)))

/-- THE FRAME: the program runs to the end, faults nowhere, and leaves both argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).2.1.trans (V_main_arg0 m c), (h c).2.2.trans (V_main_arg1 m c)⟩) (run_main m ρ)

/-- THE RUN WITH ITS RESULT NAMED: the final result is the reshape of the region's result array as the write-backs
    left it; the argument arrays are as launched. -/
theorem run_blocks : θ_run defs (onTc (τ := τ) (main (F := F))) ⟨m, fun _ => 0, ρ⟩ (fun r => ∀ c : Dev nD,
      r.2.mem ((c.tc : Thread nD τ).loc main_v8)
        = shapeCast S16x32x262144 ((dats m 0 c).arrAt 5 cfg0.N) shapeCasts_S16x32x512x512_S16x32x262144
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1, (h c).2.1.trans (V_main_arg0 m c), (h c).2.2.trans (V_main_arg1 m c)⟩) (run_main m ρ)

end Cert.Kernel.Hand

end
-- ==== Proof.KIData.lean ====
/-
  The proof data of the one pipelined kernel region, on each core: what the region finds in the arrays its
  windows stage, what each window's staging buffer holds after the body at each grid point, and at which share
  each input array is held.

  The region has six windows. Windows 0 and 1 both stage the positions array (reshaped to [16, 1, 512] by the host
  line before the region): window 0 the 256-wide block of row `b` that the point's second coordinate selects,
  window 1 the block its third coordinate selects. Windows 2, 3 and 4 stage the three coefficient vectors whole,
  window 5 is the result's [1, 32, 256, 256] block. The body loads the five input blocks and stores ONE value
  covering the whole output block, so after the body every input buffer still holds its block and the output
  buffer holds that value of the five blocks. Because two input windows read one array, that array is held at
  two halves of the full share, one per window; every other input array at the full share.
-/
import proofs.«100812_j32358283608329_1_alg».proof.Proof.Gen.KernelIdeal.Launch
import proofs.«100812_j32358283608329_1_alg».proof.Proof.Gen.KernelIdeal.Skeleton
import proofs.«100812_j32358283608329_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The arrays as the region finds them -/

/-- Core `c`'s buffers at launch, as a valuation; -/
abbrev V₀ (c : Dev nD) : Valuation τ sig (Elt F) := fun b => m (c, b)

/-- and when the region is entered: the seven host lines before it have run (three slices of the coefficient
    array, their reshapes to vectors, and the reshape of the positions array). -/
abbrev V (c : Dev nD) (b : Ref sig .tc) : Buf (Elt F) ((c : Thread nD τ).loc b) := StableHlo.after hostOps0 (V₀ m c) b

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## What the body leaves in the output window's buffer -/

/-- The whole of a positions block, of a coefficient vector, of the output block: the rectangles the body loads
    and stores through. -/
abbrev rT : Rect S1x1x256 := Rect.unit (s := S1x1x256) ![0, 0, 0] S1x1x256.size inb_S1x1x256_S1x1x256_0_0_0
abbrev rW : Rect S32 := Rect.unit (s := S32) ![0] S32.size inb_S32_S32_0
abbrev rO : Rect S1x32x256x256 := Rect.unit (s := S1x32x256x256) ![0, 0, 0, 0] S1x32x256x256.size inb_S1x32x256x256_S1x32x256x256_0_0_0_0

/-- The output buffer after the body, from the five input blocks: its one store, read back as a whole. -/
def outBlk (x0 x1 : Vec F S1x1x256 .f32) (x2 x3 x4 : Vec F S32 .f32) : Vec F S1x32x256x256 .f32 :=
  View.canon [⟨rO, k0_pay1 (View.ld x0 rT) (View.ld x1 rT) (View.ld x2 rW) (View.ld x3 rW) (View.ld x4 rW)⟩]

/-- The one store covers the buffer. -/
theorem cover_out (p0 : Vec F S1x32x256x256 .f32) (y : S1x32x256x256.Idx) :
    ∃ pc ∈ ([⟨rO, p0⟩] : List (View.Piece (Elt F) S1x32x256x256 .f32)), y ∈ pc.1.set :=
  View.cover_of_tiled [⟨rO, p0⟩] S1x32x256x256.size (by rfl) y

/-! ## The proof data -/

/-- On core `c`: the arrays as the region finds them; after the body at point `t` each input buffer at its block and
    the output buffer at `outBlk` of the five blocks; between points only the core's other scoped buffers (there is
    none); the positions array, read by windows 0 and 1, at the left and the right half of the full share;
    nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outBlk (iblk m c 0 t) (iblk m c 1 t) (iblk m c 2 t) (iblk m c 3 t) (iblk m c 4 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) :
    (dats m 0 c).after 5 t = outBlk (iblk m c 0 t) (iblk m c 1 t) (iblk m c 2 t) (iblk m c 3 t) (iblk m c 4 t) := by dsimp only [dats]

/-! ## Each input buffer holds its block when the body runs

An input window's current staging buffer holds the array's block at the point whether the pipeline fetched it
there or not: not fetched means the block index did not move since the last fetch, and the body left the block in
place. -/

theorem before0_0 (c : Dev nD) (t : Fin cfg0.N) (d) : (dats m 0 c).before 0 t d = iblk m c 0 t :=
  ((dats m 0 c).before_in_eq_fetched 0 rfl (fun _ => rfl) (fun _ _ _ => rfl)
      (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl)
      (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl)
      (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl)
      (fun t => by rw [after0_3]; unfold Dat.blockOf iblk; rw [A_eq]; try rfl) t d).trans
    (by unfold Dat.fetched Dat.blockOf iblk; rw [A_eq]; try rfl)
theorem before0_4 (c : Dev nD) (t : Fin cfg0.N) (d) : (dats m 0 c).before 4 t d = iblk m c 4 t :=
  ((dats m 0 c).before_in_eq_fetched 4 rfl (fun _ => rfl) (fun _ _ _ => rfl)
      (fun t => by rw [after0_4]; unfold Dat.blockOf iblk; rw [A_eq]; try rfl) t d).trans
    (by unfold Dat.fetched Dat.blockOf iblk; rw [A_eq]; try rfl)

end Cert.KernelIdeal.Hand

end
-- ==== Proof.KIBody.lean ====
/-
  The kernel body at one grid point. Run on six whole staging buffers — the two position blocks, the three
  coefficient vectors and the output block at any contents — it loads the five input blocks (and, unused, the
  output buffer), and stores one value over the whole output buffer; it ends holding every input buffer as it was
  and the output buffer at that value of the five blocks. With the inputs' buffers holding their blocks at every
  point, this is the pipeline's body obligation: the invariant between points and what the core owes pass
  through untouched.
-/
import proofs.«100812_j32358283608329_1_alg».proof.Proof.KIData

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 1000000 in
/-- The body on whole staging buffers: the inputs' at contents `x0 … x4`, the output's at anything. -/
theorem sound_kernel (c : Dev nD) (E : Set ℕ) (i : grid0.Coords)
    (arg3 : Memref sig .tc .vmem S1x1x256 .f32) (harg3 : arg3.IsWhole) (arg4 : Memref sig .tc .vmem S1x1x256 .f32) (harg4 : arg4.IsWhole)
    (arg5 : Memref sig .tc .vmem S32 .f32) (harg5 : arg5.IsWhole) (arg6 : Memref sig .tc .vmem S32 .f32) (harg6 : arg6.IsWhole)
    (arg7 : Memref sig .tc .vmem S32 .f32) (harg7 : arg7.IsWhole) (arg8 : Memref sig .tc .vmem S1x32x256x256 .f32) (harg8 : arg8.IsWhole)
    (x0 x1 : Vec F S1x1x256 .f32) (x2 x3 x4 : Vec F S32 .f32) (K : PUnit → sProp 𝕄) :
    iprop(owns (c : Thread nD τ) arg3 fullShare x0 ∗ owns (c : Thread nD τ) arg4 fullShare x1
        ∗ owns (c : Thread nD τ) arg5 fullShare x2 ∗ owns (c : Thread nD τ) arg6 fullShare x3 ∗ owns (c : Thread nD τ) arg7 fullShare x4
        ∗ (∃ d, owns (c : Thread nD τ) arg8 fullShare d)
        ∗ (iprop(owns (c : Thread nD τ) arg3 fullShare x0 ∗ owns (c : Thread nD τ) arg4 fullShare x1
            ∗ owns (c : Thread nD τ) arg5 fullShare x2 ∗ owns (c : Thread nD τ) arg6 fullShare x3 ∗ owns (c : Thread nD τ) arg7 fullShare x4
            ∗ owns (c : Thread nD τ) arg8 fullShare (outBlk x0 x1 x2 x3 x4)) -∗ K ⟨⟩))
      ⊢ wp frame (wpE (defs₀ (F := F)) Variants.none c none) E
          (cc0__pairwise_kernel i arg3 harg3 arg4 harg4 arg5 harg5 arg6 harg6 arg7 harg7 arg8 harg8) K := by
  simp only [cc0__pairwise_kernel_eq_skeleton]; unfold cc0__pairwise_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover_out _)

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the inputs' buffers hold their blocks, so `sound_kernel` applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _
    (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.KILaunch.lean ====
/-
  The launch: @main is seven host lines, the kernel region, and one host line (the reshape of the region's
  result). It is run as that list of three segments. The thread state between segments is a set of whole
  buffers held at a valuation, beside what the core owes (nothing).

  Entering the region, the unscoped buffers are sorted: the five buffers behind the windows' arrays become the
  pipeline's arrays — the positions array, which two input windows read, split into the two halves of its full
  share, one per window — and of the rest the two argument arrays and the final result's buffer bypass the region.
  Leaving it, only what the last line needs is kept whole: the region's result at what the write-backs left and
  the final result's buffer; the argument arrays ride along untouched; everything else is let go. The last line
  then writes the reshape of the region's result, and the final state is read off those four buffers.
-/
import proofs.«100812_j32358283608329_1_alg».proof.Proof.KIBody
import Idealize.ShloMosaic.Lib.Pipeline.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's arrays, window by window -/

/-- The pipeline's arrays at contents `G`: the positions array twice, at the two halves of the full share, then the
    three coefficient vectors and the region's result, each at the full share. -/
theorem arrays_list (c : Dev nD) (G : (w : Fin cfg0.W) → Buf (Elt F) ((cfg0.win w).arr.view.loc (c : Thread nD τ))) :
    ((dats m 0 c).arrays G : sProp 𝕄)
      = iprop((((c : Thread nD τ).loc main_v6) ↦{fullShare.left} G 0) ∗ (((c : Thread nD τ).loc main_v6) ↦{fullShare.right} G 1)
          ∗ (((c : Thread nD τ).loc main_v1) ↦{fullShare} G 2) ∗ (((c : Thread nD τ).loc main_v3) ↦{fullShare} G 3)
          ∗ (((c : Thread nD τ).loc main_v5) ↦{fullShare} G 4) ∗ (((c : Thread nD τ).loc main_v7) ↦{fullShare} G 5)) := by
  have hs : ∀ w : Fin 6, (cfg0.win w).arr.view.set = Finset.univ := fun w => (arr_whole0 w).set_eq_univ
  unfold Dat.arrays
  rw [bigSep_W0, hs 0, hs 2, hs 3, hs 4, hs 5,
    show (dats m 0 c).share 0 = fullShare.left from rfl, show (dats m 0 c).share 1 = fullShare.right from rfl,
    show (dats m 0 c).share 2 = fullShare from rfl, show (dats m 0 c).share 3 = fullShare from rfl,
    show (dats m 0 c).share 4 = fullShare from rfl, show (dats m 0 c).share 5 = fullShare from rfl]

/-- The buffers behind the windows' arrays, each once. -/
theorem arrBufs_list (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_v6) ↦{fullShare} W main_v6) ∗ (((c : Thread nD τ).loc main_v1) ↦{fullShare} W main_v1)
          ∗ (((c : Thread nD τ).loc main_v3) ↦{fullShare} W main_v3) ∗ (((c : Thread nD τ).loc main_v5) ↦{fullShare} W main_v5)
          ∗ (((c : Thread nD τ).loc main_v7) ↦{fullShare} W main_v7)) := by
  unfold Pipeline.arrBufs
  exact bigSep_eq_bigSepL_of_eq [main_v6, main_v1, main_v3, main_v5, main_v7] (by decide) (by decide) _

/-- ENTRY, the arrays' part: the unscoped buffers as the region finds them are the pipeline's arrays at their entry
    contents — the positions array's full share split between its two windows — and the unscoped rest. -/
theorem entry_split (c : Dev nD) :
    (unscopedBufs c (V m c) : sProp 𝕄)
      ⊢ iprop((dats m 0 c).arrays ((dats m 0 c).arrAt · 0) ∗ Pipeline.unscopedRest spec0 c (V m c)) := by
  rw [Pipeline.unscopedBufs_split₀ cfgs 0 winFacts₀0.arr_unscoped c (V m c), arrBufs_list, arrays_list]
  iintro ⟨⟨H6, H1, H3, H5, H7⟩, Hr⟩
  isplitr [Hr]; swap; · iexact Hr
  ihave H6' := (pointsTo_share (PosShare.mem_left_op_right fullShare)).1 $$ H6
  icases H6' with ⟨H6l, H6r⟩
  isplitl [H6l]; · iexact H6l
  isplitl [H6r]; · iexact H6r
  isplitl [H1]; · iexact H1
  isplitl [H3]; · iexact H3
  isplitl [H5]; · iexact H5
  iexact H7

/-! ## The segments -/

abbrev 𝒱₀ : Variants := Variants.none
/-- No core owes another anything: no level is assigned. -/
abbrev L : GSem nD τ sig → Finset Unit := fun _ => ∅
abbrev lv : GSem nD τ sig → Unit → ℕ := fun _ _ => 0
/-- No prefetched table. -/
abbrev adm : (p : Fin 1) → (pcfgs (F := F) p).Adm := fun p => (cfgs p).toPCfg_adm

/-- What rides beside the buffers: the core owes nothing. -/
abbrev R (c : Dev nD) : sProp 𝕄 := iprop(∃ W, owes (c : Thread nD τ) (0 : CellTallies nD τ sig Unit) W)

/-- The two argument arrays, as the region found them: they bypass the region and the last line. -/
abbrev Keep (c : Dev nD) : sProp 𝕄 :=
  iprop((((c : Thread nD τ).loc main_arg0) ↦{fullShare} V m c main_arg0) ∗ (((c : Thread nD τ).loc main_arg1) ↦{fullShare} V m c main_arg1))

theorem hostOps0_fresh : ∀ op ∈ (hostOps0 : List (HloOp τ sig (Elt F))), op.fresh = ∅ := by
  intro _ h; (repeat (cases h with | head => rfl | tail _ h => ?_)); exact nomatch h
theorem hostOps1_fresh : ∀ op ∈ (hostOps1 : List (HloOp τ sig (Elt F))), op.fresh = ∅ := by
  intro _ h; (repeat (cases h with | head => rfl | tail _ h => ?_)); exact nomatch h

/-- THE FIRST HOST SEGMENT: the seven lines before the region, over all the unscoped buffers. -/
def seg0 : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h)) hostOps0_fresh (V₀ m) R

/-- The two buffers the last line touches: the region's result and the final result. -/
abbrev S1 : Finset (DevRef τ sig) := {Proc.devRef .tc main_v7, Proc.devRef .tc main_v8}

/-- Core `c`'s buffers when the region is left: its result at what the write-backs left, the rest as it was found. -/
def W₁ (c : Dev nD) : Valuation τ sig (Elt F) :=
  Function.update (StableHlo.after hostOps0 (V₀ m c)) (Proc.devRef .tc main_v7) ((dats m 0 c).arrAt 5 cfg0.N)

theorem W₁_v7 (c : Dev nD) : W₁ m c (Proc.devRef .tc main_v7) = (dats m 0 c).arrAt 5 cfg0.N := by
  unfold W₁; exact Function.update_self ..
theorem W₁_v8 (c : Dev nD) : W₁ m c (Proc.devRef .tc main_v8) = V m c main_v8 := by
  unfold W₁; exact Function.update_of_ne (by decide) ..

/-- The two buffers held at a valuation, one by one. -/
theorem held_S1 (c : Dev nD) (W : Valuation τ sig (Elt F)) :
    (StableHlo.held (c : Thread nD τ) S1 W : sProp 𝕄)
      = iprop((((c : Thread nD τ).loc main_v7) ↦{fullShare} W (Proc.devRef .tc main_v7))
          ∗ (((c : Thread nD τ).loc main_v8) ↦{fullShare} W (Proc.devRef .tc main_v8))) := by
  unfold StableHlo.held S1
  rw [bigSep_insert (by decide), bigSep_singleton]
  rfl

/-- THE LAST HOST SEGMENT: the reshape of the region's result, over those two buffers. -/
def seg1 : Pipeline.HostSeg (Name := ℕ) (U := UR sig nD τ) (pcfgs (F := F)) defs₀ 𝒱₀ L lv :=
  Pipeline.HostSeg.ofOps _ _ _ _ _ S1 hostOps1
    (by intro op h; cases h with | head => exact (StableHlo.reshape_bufs ..).subset | tail _ h => exact nomatch h) hostOps1_fresh (W₁ m)
    (fun c => iprop(Keep m c ∗ R c))

-- an entailment of a launch lemma stated over `cfgs p` at the pinned configuration unifies only when unification may
-- unfold plain definitions in a metavariable's type
set_option backward.isDefEq.respectTransparency.types false in
/-- THE REGION: the decided layout (the windows may share an array), no semaphore of the kernel's own, the body
    obligation; entered from what the first segment left, left with what the last segment takes. -/
def reg0 : Pipeline.RegionSeg (pcfgs (F := F)) adm (dats m) () defs₀ 𝒱₀ L lv 0 where
  win := winFacts₀0
  block_pos := block_pos0
  stage_whole := stage_whole0
  K := PEmpty
  osem := fun k => k.elim
  ho := Pipeline.OwnSemFacts.none _
  hbody c := (body_obligation m c).loose
  hwaits := Pipeline.hwaits_of_owed_zero _ _ _ _ L lv 0 fun _ _ => rfl
  pre c := iprop(StableHlo.held (c : Thread nD τ) (Pipeline.ucRefs τ sig) (StableHlo.after hostOps0 (V₀ m c)) ∗ R c)
  post c := iprop(StableHlo.held (c : Thread nD τ) S1 (W₁ m c) ∗ (Keep m c ∗ R c))
  X _ := iprop(emp)
  Y _ := iprop(emp)
  Z c := iprop(Keep m c ∗ (((c : Thread nD τ).loc main_v8) ↦{fullShare} V m c main_v8))
  hentry c := by
    rw [show StableHlo.held (c : Thread nD τ) (Pipeline.ucRefs τ sig) (StableHlo.after hostOps0 (V₀ m c)) = unscopedBufs c (V m c)
      from (Pipeline.unscopedBufs_held c _).symm]
    have hsplit := (entry_split m c).trans (sep_mono .rfl (Entails.of_eq (unscopedRest0_eq c (V m c))))
    iintro ⟨⟨Hub, HO⟩, -, -⟩
    ihave H := hsplit $$ Hub
    icases H with ⟨Ha, H0, H1, -, -, -, H8⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [H0 H1]
    · isplitl [H0]; · iexact H0
      iexact H1
    iexact H8
  hin c := by
    rw [show (dats m 0 c).Φ 0 = Pipeline.scopedRest (Ix := Unit) (Name := ℕ) (U := UR sig nD τ) (Lvl := ℕ) (Val := Elt F) spec0 c from rfl]
    iintro ⟨-, -, Hr⟩
    iexact Hr
  hout c := by
    rw [Pipeline.ownSems0_none, show (dats m 0 c).Φ (Fin.last cfg0.N) = Pipeline.scopedRest (Ix := Unit) (Name := ℕ) (U := UR sig nD τ) (Lvl := ℕ) (Val := Elt F) spec0 c from rfl]
    iintro Hr
    isplitr; · iempintro
    isplitr; · iempintro
    iexact Hr
  hexit c := by
    rw [arrays_list, held_S1, W₁_v7, W₁_v8]
    iintro ⟨⟨-, -, -, -, -, H7⟩, HO, -, ⟨HK, H8⟩⟩
    imodintro
    isplitl [H7 H8]
    · isplitl [H7]; · iexact H7
      iexact H8
    isplitl [HK]; · iexact HK
    unfold Pipeline.Dat.owesAt Pipeline.owesWithin
    icases HO with ⟨%W, -, HO⟩; iexists W; iexact HO

/-- @main as the list of the three. -/
abbrev segs : List (Pipeline.Seg (pcfgs (F := F)) adm (dats m) () defs₀ 𝒱₀ L lv) := [.host (seg0 m), .region (reg0 m), .host (seg1 m)]

/-! ## The run -/

/-- The final result as the last line leaves it: the reshape of the region's result. -/
theorem after_v8 (c : Dev nD) :
    StableHlo.after hostOps1 (W₁ m c) (Proc.devRef .tc main_v8)
      = shapeCast S16x32x262144 ((dats m 0 c).arrAt 5 cfg0.N) shapeCasts_S16x32x512x512_S16x32x262144 := by
  rw [← W₁_v7]
  after_results <;> rfl

/-- What is read of a final state on core `c`: the region's arrays are not read (they were let go); the final result
    is the reshape of the region's result, and the argument arrays are as the region found them. -/
def QYc (c : Dev nD) (s : MemSt nD τ sig (Elt F)) : Prop :=
  s.mem ((c : Thread nD τ).loc main_v8) = shapeCast S16x32x262144 ((dats m 0 c).arrAt 5 cfg0.N) shapeCasts_S16x32x512x512_S16x32x262144
    ∧ s.mem ((c : Thread nD τ).loc main_arg0) = V m c main_arg0
    ∧ s.mem ((c : Thread nD τ).loc main_arg1) = V m c main_arg1

/-- The last thread state. -/
abbrev Tₙ (c : Dev nD) : sProp 𝕄 :=
  iprop(StableHlo.held (c : Thread nD τ) S1 (StableHlo.after hostOps1 (W₁ m c)) ∗ Keep m c)

set_option backward.isDefEq.respectTransparency.types false in
/-- At the compiled mesh, for any float values, from any memory with zero counters: every weakly fair execution of
    @main on the TensorCores terminates, and every final state has the final result at the reshape of what the
    region's write-backs left and the two argument arrays as the region found them. -/
theorem run_main : θ_run defs (onTc (τ := τ) (main (F := F))) (s₀ m ρ) (fun r => ∀ c : Dev nD, QYc m c r.2) :=
  Pipeline.θ_run_regions_kit (pcfgs (F := F)) adm (dats m) () cellOf_inj emb₁ defs₀ 𝒱₀ L lv m ρ main (segs m)
    (fun c Q => by rw [main_segs adm (dats m) () 𝒱₀ L lv (seg0 m) (seg1 m) (reg0 m) rfl rfl c])
    (by simp only [Pipeline.Seg.pipes_host, Pipeline.Seg.pipes_region, Pipeline.Seg.pipes_nil]; decide) (O₀ := 0) (hL := fun _ _ => rfl) (G := fun _ => iprop(emp))
    (u₀ := initOf (Pipeline.cells (Pipeline.pin (pcfgs (F := F)) adm) cellOf_inj) (Pipeline.launchToks (Pipeline.pin (pcfgs (F := F)) adm) cellOf_inj))
    (hu₀ := by
      iintro Hu
      imodintro
      isplitl [Hu]; · iapply (show (ownU _ : sProp 𝕄) ⊢ BI.own (emb₁ _) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V₀ m c) ∗ R c)) (Tₙ := Tₙ m)
    (hch := ⟨fun _ => .rfl, fun _ => .rfl, fun _ => .rfl, fun c => by
      show iprop(StableHlo.held (c : Thread nD τ) S1 (StableHlo.after hostOps1 (W₁ m c)) ∗ (Keep m c ∗ R c))
        ⊢ iprop(Tₙ m c ∗ ∃ W, owes (c : Thread nD τ) (0 : CellTallies nD τ sig Unit) W)
      iintro ⟨Hh, HK, HO⟩
      isplitr [HO]; swap; · iexact HO
      isplitl [Hh]; · iexact Hh
      iexact HK⟩)
    (hinit := by
      refine Pipeline.initEach L lv fun c => ?_
      rw [show unscopedBufs c (fun b => m ((c : Thread nD τ).loc b)) = StableHlo.held (c : Thread nD τ) (Pipeline.ucRefs τ sig) (V₀ m c)
        from Pipeline.unscopedBufs_held c (V₀ m c)]
      iintro ⟨⟨Hh, -, HO, -, -, -⟩, -⟩
      imodintro
      isplitl [Hh]; · iexact Hh
      iexists ∅; iexact HO)
    (QY := QYc m)
    (hfin := fun c s' => by
      dsimp only [Tₙ, Keep]; rw [held_S1, after_v8]
      iintro ⟨⟨⟨-, H8⟩, H0, H1⟩, HSI⟩
      icombine HSI H8 gives %h8
      icombine HSI H0 gives %h0
      icombine HSI H1 gives %h1
      imodintro
      isplitr; · ipureintro; exact ⟨Buf.eq_of_forall_mem_univ h8, Buf.eq_of_forall_mem_univ h0, Buf.eq_of_forall_mem_univ h1⟩
      iexact HSI)
    (hQ := fun _ h => h)

/-! ## The argument arrays, and the two runs the claims cite -/

/-- No host line before the region writes the positions array: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, StableHlo.reshape_writes, Finset.mem_singleton]
    repeat' apply And.intro
    all_goals exact StableHlo.devRef_ne_of_ne (by decide)))
/-- Nor the coefficient array. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, StableHlo.reshape_writes, Finset.mem_singleton]
    repeat' apply And.intro
    all_goals exact StableHlo.devRef_ne_of_ne (by decide)))

/-- THE FRAME: the program runs to the end, faults nowhere, and leaves both argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).2.1.trans (V_main_arg0 m c), (h c).2.2.trans (V_main_arg1 m c)⟩) (run_main m ρ)

/-- THE RUN WITH ITS RESULT NAMED: the final result is the reshape of the region's result array as the write-backs
    left it; the argument arrays are as launched. -/
theorem run_blocks : θ_run defs (onTc (τ := τ) (main (F := F))) ⟨m, fun _ => 0, ρ⟩ (fun r => ∀ c : Dev nD,
      r.2.mem ((c.tc : Thread nD τ).loc main_v8)
        = shapeCast S16x32x262144 ((dats m 0 c).arrAt 5 cfg0.N) shapeCasts_S16x32x512x512_S16x32x262144
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1, (h c).2.1.trans (V_main_arg0 m c), (h c).2.2.trans (V_main_arg1 m c)⟩) (run_main m ρ)

end Cert.KernelIdeal.Hand

end
-- ==== Proof.Spec.lean ====
/-
  The function both programs compute, as one whole-array function of the two argument arrays at the ideal
  instance (floats are extended reals): for a batch row `b`, a filter `f` and a pair of positions `(i, j)`,

      out[b, f, i, j] = max ((w[0, f, 0, 0] * t[b, i] + w[0, f, 1, 0] * t[b, j]) + w[0, f, 2, 0]) 0

  — a rectified affine form of the pair `(t[b, i], t[b, j])` with per-filter coefficients. The sum is kept in the
  association both programs use (the two products first, the offset last), so no law of the extended reals is
  needed to compare them; the zero is kept as the float word it is printed as on both sides.
-/
import Idealize.ShloMosaic.PureOps.Ideal
import Idealize.ShloMosaic.Lib.ValueIdx

noncomputable section

namespace PairRelu

open Idealize.ShloMosaic Idealize.ShloMosaic.ValueIdx

/-- The positions array `t`: 16 batch rows of 512 positions. -/
abbrev St : Shape := ⟨2, ![16, 512]⟩
/-- The coefficient array `w`: for each of 32 filters the two slopes and the offset. -/
abbrev Sw : Shape := ⟨4, ![1, 32, 3, 1]⟩
/-- The result: per batch row and filter, the 512 × 512 table over pairs of positions. -/
abbrev So : Shape := ⟨4, ![16, 32, 512, 512]⟩

/-- One entry of the result from the three coefficients of its filter and the two positions of its pair. -/
def entry (a0 a1 a2 ti tj : EReal) : EReal :=
  max ((a0 * ti + a1 * tj) + a2) (Ideal.ofBits .f32 0x00000000#32)

/-- The whole result as a function of the argument arrays. -/
def pairRelu (t : FVec Ideal St .f32) (w : FVec Ideal Sw .f32) : FVec Ideal So .f32 := fun y =>
  entry (w (ix4 0 (y 1) 0 0)) (w (ix4 0 (y 1) 1 0)) (w (ix4 0 (y 1) 2 0)) (t (ix2 (y 0) (y 2))) (t (ix2 (y 0) (y 3)))

theorem pairRelu_apply (t : FVec Ideal St .f32) (w : FVec Ideal Sw .f32) (b : Fin 16) (f : Fin 32) (i j : Fin 512) :
    pairRelu t w (ix4 b f i j)
      = entry (w (ix4 0 f 0 0)) (w (ix4 0 f 1 0)) (w (ix4 0 f 2 0)) (t (ix2 b i)) (t (ix2 b j)) := rfl

end PairRelu

end
-- ==== Proof.Payload.lean ====
/-
  The value the kernel's body stores, read at one index.

  From the two position blocks `x0`, `x1 : [1, 1, 256]` (rows `i` and `j` of a pair) and the three coefficient
  vectors `x2`, `x3`, `x4 : [32]`, the body builds, by shape casts and broadcasts to `[32, 256, 256]`, the table

      max ((x2[f] * x0[p] + x3[f] * x1[q]) + x4[f]) 0

  and casts it to `[1, 32, 256, 256]`. Every operation on the way is either a layout operation, which reads at an
  index of its result ONE index of its operand, or an elementwise operation, which at the ideal instance is the
  extended reals' own. So the stored value at `(0, f, p, q)` is found by walking from the result back to the five
  loaded blocks, one operation at a time. The first part states, for each layout step that occurs, which operand index
  it reads (generic in the vector and in the extents); the second part does the walk.
-/
import proofs.«100812_j32358283608329_1_alg».proof.Proof.Gen.KernelIdeal.Skeleton
import proofs.«100812_j32358283608329_1_alg».proof.Proof.Spec
import Idealize.ShloMosaic.Lib.ValueIdx
import Idealize.ShloMosaic.Lib.Pipeline.Value
import Idealize.ShloMosaic.Lib.ValueLayout
import Idealize.ShloMosaic.PureOps.Ideal

noncomputable section

namespace Cert.KernelIdeal.Payload

open Cert.KernelIdeal Cert.KernelIdeal.Gen Cert.KernelIdeal.Facts₀ Idealize.ShloMosaic Idealize.ShloMosaic.ValueIdx

variable [Cert.KernelIdeal.Facts]

/-! ## A vector cast to a rank-3 shape with two unit axes, and back

A shape cast keeps the row-major position. With two of three extents equal to one, the position in the rank-3 shape is
the coordinate on the remaining axis. -/

section Casts
variable {α : Type}

/-- An `[a]` vector cast to a column `[a, 1, 1]` reads, at `(i, u, v)`, the operand at `i`. -/
theorem shapeCast_a_a11_apply {a : ℕ} (x : (⟨1, ![a]⟩ : Shape).Idx → α)
    (h : (⟨1, ![a]⟩ : Shape).ShapeCasts ⟨3, ![a, 1, 1]⟩) (i : Fin a) (u v : Fin 1) :
    shapeCast ⟨3, ![a, 1, 1]⟩ x h (ix3 i u v) = x (ix1 i) :=
  shapeCast_apply x h _ _ (by
    have hu : u.val = 0 := by omega
    have hv : v.val = 0 := by omega
    rw [Shape.rowMajor_val_three, Shape.rowMajor_val_one]
    show i.val = (i.val * 1 + u.val) * 1 + v.val
    simp only [hu, hv, Nat.mul_one, Nat.add_zero])

/-- A `[b]` vector cast to `[1, b, 1]` reads, at `(u, i, v)`, the operand at `i`. -/
theorem shapeCast_b_1b1_apply {b : ℕ} (x : (⟨1, ![b]⟩ : Shape).Idx → α)
    (h : (⟨1, ![b]⟩ : Shape).ShapeCasts ⟨3, ![1, b, 1]⟩) (u : Fin 1) (i : Fin b) (v : Fin 1) :
    shapeCast ⟨3, ![1, b, 1]⟩ x h (ix3 u i v) = x (ix1 i) :=
  shapeCast_apply x h _ _ (by
    have hu : u.val = 0 := by omega
    have hv : v.val = 0 := by omega
    rw [Shape.rowMajor_val_three, Shape.rowMajor_val_one]
    show i.val = (u.val * b + i.val) * 1 + v.val
    simp only [hu, hv, Nat.zero_mul, Nat.zero_add, Nat.mul_one, Nat.add_zero])

/-- A `[c]` vector cast to a row `[1, 1, c]` reads, at `(u, v, i)`, the operand at `i`. -/
theorem shapeCast_c_11c_apply {c : ℕ} (x : (⟨1, ![c]⟩ : Shape).Idx → α)
    (h : (⟨1, ![c]⟩ : Shape).ShapeCasts ⟨3, ![1, 1, c]⟩) (u v : Fin 1) (i : Fin c) :
    shapeCast ⟨3, ![1, 1, c]⟩ x h (ix3 u v i) = x (ix1 i) :=
  shapeCast_apply x h _ _ (by
    have hu : u.val = 0 := by omega
    have hv : v.val = 0 := by omega
    rw [Shape.rowMajor_val_three, Shape.rowMajor_val_one]
    show i.val = (u.val * 1 + v.val) * c + i.val
    simp only [hu, hv, Nat.zero_mul, Nat.zero_add])

/-- A row `[1, 1, c]` cast to the vector `[c]` reads, at `i`, the operand at `(0, 0, i)`. -/
theorem shapeCast_11c_c_apply {c : ℕ} (x : (⟨3, ![1, 1, c]⟩ : Shape).Idx → α)
    (h : (⟨3, ![1, 1, c]⟩ : Shape).ShapeCasts ⟨1, ![c]⟩) (i : Fin c) :
    shapeCast ⟨1, ![c]⟩ x h (ix1 i) = x (ix3 (0 : Fin 1) (0 : Fin 1) i) :=
  shapeCast_apply x h _ _ (by
    rw [Shape.rowMajor_val_three, Shape.rowMajor_val_one]
    show (0 * 1 + 0) * c + i.val = i.val
    simp only [Nat.zero_mul, Nat.zero_add])

end Casts

/-! ## Rank-3 broadcasts

A broadcast between shapes of the same rank reads, at an index of the result, the operand at the same coordinates,
with `0` on every axis where the operand's extent is one. One statement covers all seven broadcasts of the body: the
caller names the operand's coordinates and gives, per axis, the equation the broadcast asks for. -/

section Broadcasts
variable {α : Type}

/-- A rank-3 array broadcast to a rank-3 shape reads, at `(i, j, k)`, the operand at `(i', j', k')`, where each primed
    coordinate is `0` if the operand's extent on that axis is one and the result's coordinate otherwise. -/
theorem broadcastTo_ix3_apply {a₀ b₀ c₀ a b c : ℕ} (x : (⟨3, ![a₀, b₀, c₀]⟩ : Shape).Idx → α)
    (h : (⟨3, ![a₀, b₀, c₀]⟩ : Shape).Broadcasts ⟨3, ![a, b, c]⟩) (i : Fin a) (j : Fin b) (k : Fin c)
    (i' : Fin a₀) (j' : Fin b₀) (k' : Fin c₀)
    (hi : i'.val = if a₀ = 1 then 0 else i.val) (hj : j'.val = if b₀ = 1 then 0 else j.val)
    (hk : k'.val = if c₀ = 1 then 0 else k.val) :
    broadcastTo ⟨3, ![a, b, c]⟩ x h (ix3 i j k) = x (ix3 i' j' k') :=
  broadcastTo_apply x h (ix3 i j k) (ix3 i' j' k') fun ax =>
    match ax with
    | ⟨0, _⟩ => hi
    | ⟨1, _⟩ => hj
    | ⟨2, _⟩ => hk

end Broadcasts

/-! ## The stored value at an index

The walk from the result back to the loaded blocks. At `(0, f, p, q)` the outer cast reads the `[32, 256, 256]` table at
`(f, p, q)`; the maximum, the two sums and the two products read their operands at the same index; each broadcast
drops the coordinates its operand does not have; and the casts of the five blocks to columns and rows read the blocks
at `f`, `p` or `q`. -/

/-- A coefficient vector cast to itself and then to a column `[a, 1, 1]` reads, at `(i, u, v)`, the vector at `i`. -/
theorem column_apply {α : Type} {a : ℕ} (x : (⟨1, ![a]⟩ : Shape).Idx → α)
    (h₁ : (⟨1, ![a]⟩ : Shape).ShapeCasts ⟨1, ![a]⟩) (h₂ : (⟨1, ![a]⟩ : Shape).ShapeCasts ⟨3, ![a, 1, 1]⟩)
    (i : Fin a) (u v : Fin 1) :
    shapeCast ⟨3, ![a, 1, 1]⟩ (shapeCast ⟨1, ![a]⟩ x h₁) h₂ (ix3 i u v) = x (ix1 i) :=
  (shapeCast_a_a11_apply _ h₂ i u v).trans (congrFun (shapeCast_self x h₁) (ix1 i))

/-- THE PAYLOAD AT `(0, f, p, q)`: the rectified affine form of the pair `(x0[p], x1[q])` with filter `f`'s three
    coefficients. -/
theorem pay1_apply (x0 x1 : Vec Ideal S1x1x256 .f32) (x2 x3 x4 : Vec Ideal S32 .f32) (f : Fin 32) (p q : Fin 256) :
    k0_pay1 (F := Ideal) x0 x1 x2 x3 x4 (ix4 0 f p q)
      = PairRelu.entry (x2 (ix1 f)) (x3 (ix1 f)) (x4 (ix1 f)) (x0 (ix3 0 0 p)) (x1 (ix3 0 0 q)) := by
  unfold k0_pay1 PairRelu.entry
  -- the outer cast, the maximum with the broadcast zero, and the outer sum
  refine (shapeCast_abc_1abc_apply _ _ 0 f p q).trans ?_
  refine (maximumf_apply _ _ _).trans ?_
  refine congrArg₂ max ?_ rfl
  refine (addf_apply _ _ _).trans ?_
  refine congrArg₂ (· + ·) ?_ ?_
  · -- the sum of the two products
    refine (addf_apply _ _ _).trans ?_
    refine congrArg₂ (· + ·) ?_ ?_
    · -- x2[f] * x0[p]: a [32, 256, 1] product broadcast along the last axis
      refine (broadcastTo_ix3_apply _ _ f p q f p (0 : Fin 1) rfl rfl rfl).trans ?_
      refine (mulf_apply _ _ _).trans ?_
      refine congrArg₂ (· * ·) ?_ ?_
      · refine (broadcastTo_ix3_apply _ _ f p (0 : Fin 1) f (0 : Fin 1) (0 : Fin 1) rfl rfl rfl).trans ?_
        exact column_apply x2 _ _ f 0 0
      · refine (broadcastTo_ix3_apply _ _ f p (0 : Fin 1) (0 : Fin 1) p (0 : Fin 1) rfl rfl rfl).trans ?_
        refine (shapeCast_b_1b1_apply _ _ 0 p 0).trans ?_
        exact shapeCast_11c_c_apply x0 _ p
    · -- x3[f] * x1[q]: a [32, 1, 256] product broadcast along the middle axis
      refine (broadcastTo_ix3_apply _ _ f p q f (0 : Fin 1) q rfl rfl rfl).trans ?_
      refine (mulf_apply _ _ _).trans ?_
      refine congrArg₂ (· * ·) ?_ ?_
      · refine (broadcastTo_ix3_apply _ _ f (0 : Fin 1) q f (0 : Fin 1) (0 : Fin 1) rfl rfl rfl).trans ?_
        exact column_apply x3 _ _ f 0 0
      · refine (broadcastTo_ix3_apply _ _ f (0 : Fin 1) q (0 : Fin 1) (0 : Fin 1) q rfl rfl rfl).trans ?_
        refine (shapeCast_c_11c_apply _ _ 0 0 q).trans ?_
        exact shapeCast_11c_c_apply x1 _ q
  · -- x4[f]: a column broadcast along both trailing axes
    refine (broadcastTo_ix3_apply _ _ f p q f (0 : Fin 1) (0 : Fin 1) rfl rfl rfl).trans ?_
    exact column_apply x4 _ _ f 0 0

/-- The payload at any index `y` of the block: `y`'s leading coordinate ranges over one value, so `y` is
    `(0, y 1, y 2, y 3)`. -/
theorem pay1_eq (x0 x1 : Vec Ideal S1x1x256 .f32) (x2 x3 x4 : Vec Ideal S32 .f32) (y : S1x32x256x256.Idx) :
    k0_pay1 (F := Ideal) x0 x1 x2 x3 x4 y
      = PairRelu.entry (x2 (ix1 (y 1))) (x3 (ix1 (y 1))) (x4 (ix1 (y 1))) (x0 (ix3 0 0 (y 2))) (x1 (ix3 0 0 (y 3))) := by
  have hy : y = ix4 (0 : Fin 1) (y 1) (y 2) (y 3) := by
    refine (eq_ix4 y).trans ?_
    exact congrArg (fun u : Fin 1 => ix4 u (y 1) (y 2) (y 3)) (Subsingleton.elim _ _)
  exact (congrArg (k0_pay1 (F := Ideal) x0 x1 x2 x3 x4) hy).trans (pay1_apply x0 x1 x2 x3 x4 (y 1) (y 2) (y 3))

end Cert.KernelIdeal.Payload

end
-- ==== Proof.KIValue.lean ====
/-
  From the blocks the grid points write to the whole result array.

  The region's output window writes, at the grid point with coordinates (b, I, J), the block
  [b, 0:32, 256 I : 256 I + 256, 256 J : 256 J + 256] of the result. Its two position windows hold rows
  [b, 0, 256 I : 256 I + 256] and [b, 0, 256 J : 256 J + 256] of the positions array (reshaped to [16, 1, 512]), and its
  three coefficient windows the three columns of the coefficient array (sliced and reshaped to [32]). So the
  block written at a point is that block of ONE function of the two argument arrays, the rectified affine form of
  the specification; the 64 blocks tile the result, hence the result array ends holding that function.
-/
import proofs.«100812_j32358283608329_1_alg».proof.Proof.KIData
import proofs.«100812_j32358283608329_1_alg».proof.Proof.Payload
import proofs.«100812_j32358283608329_1_alg».proof.Proof.Spec
import Idealize.ShloMosaic.Lib.Pipeline.Value
import Idealize.ShloMosaic.Lib.ValueIdx
import Idealize.ShloMosaic.Lib.StableHlo.Run

set_option maxRecDepth 16384

noncomputable section

namespace Cert.KernelIdeal.HandValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Hand Idealize.ShloMosaic.ValueIdx

variable (m : (ℓ : Loc nD τ sig) → Buf (Elt Ideal) ℓ)

/-! ## The staged arrays as the region finds them -/

/-- The positions array as the region finds it: the argument, reshaped to [16, 1, 512]. -/
theorem V_positions (c : Dev nD) :
    (V m c main_v6 : S16x1x512.Idx → EReal)
      = shapeCast S16x1x512 (m ((c : Thread nD τ).loc main_arg0)) shapeCasts_S16x512_S16x1x512 := by
  dsimp only [V, hostOps0]
  after_results
  rfl

/-- The k-th coefficient vector as the region finds it: column k of the coefficient array, sliced and reshaped to [32]. -/
theorem V_coef0 (c : Dev nD) :
    (V m c main_v1 : S32.Idx → EReal)
      = shapeCast S32 (extractStridedSlice S1x32x1x1 ![0, 0, 0, 0] (m ((c : Thread nD τ).loc main_arg1))
          slices_S1x32x3x1_S1x32x1x1_0_0_0_0) shapeCasts_S1x32x1x1_S32 := by
  dsimp only [V, hostOps0]
  after_results
  rfl

theorem V_coef1 (c : Dev nD) :
    (V m c main_v3 : S32.Idx → EReal)
      = shapeCast S32 (extractStridedSlice S1x32x1x1 ![0, 0, 1, 0] (m ((c : Thread nD τ).loc main_arg1))
          slices_S1x32x3x1_S1x32x1x1_0_0_1_0) shapeCasts_S1x32x1x1_S32 := by
  dsimp only [V, hostOps0]
  after_results
  rfl

theorem V_coef2 (c : Dev nD) :
    (V m c main_v5 : S32.Idx → EReal)
      = shapeCast S32 (extractStridedSlice S1x32x1x1 ![0, 0, 2, 0] (m ((c : Thread nD τ).loc main_arg1))
          slices_S1x32x3x1_S1x32x1x1_0_0_2_0) shapeCasts_S1x32x1x1_S32 := by
  dsimp only [V, hostOps0]
  after_results
  rfl

/-! ## The same, read at an index

A reshape keeps the row-major position; with a unit axis the position is read off the remaining coordinates. A
unit-stride slice shifts each coordinate by its offset. -/

/-- The reshaped positions at (b, 0, i) are the positions at (b, i). -/
theorem positions_apply (t : FVec Ideal PairRelu.St .f32) (h : S16x512.ShapeCasts S16x1x512)
    (b : Fin 16) (u : Fin 1) (i : Fin 512) :
    shapeCast S16x1x512 t h (ix3 b u i) = t (ix2 b i) :=
  shapeCast_apply t h _ _ (by
    have hu : u.val = 0 := by omega
    rw [Shape.rowMajor_val_three, Shape.rowMajor_val_two]
    show b.val * 512 + i.val = (b.val * 1 + u.val) * 512 + i.val
    rw [hu]; omega)

/-- Column k of the coefficient array, reshaped to a vector, at f is the array at (0, f, k, 0). -/
theorem coef_apply (w : FVec Ideal PairRelu.Sw .f32) (k : Fin 3) (off : Fin 4 → ℕ) (hoff : off = ![0, 0, k.val, 0])
    (hs : S1x32x3x1.Slices off S1x32x1x1) (h : S1x32x1x1.ShapeCasts S32) (f : Fin 32) :
    shapeCast S32 (extractStridedSlice S1x32x1x1 off w hs) h (ix1 f) = w (ix4 0 f k 0) := by
  subst hoff
  refine (shapeCast_apply _ h (ix1 f) (ix4 (0 : Fin 1) f (0 : Fin 1) (0 : Fin 1)) ?_).trans ?_
  · rw [Shape.rowMajor_val_four, Shape.rowMajor_val_one]
    show ((0 * 32 + f.val) * 1 + 0) * 1 + 0 = f.val
    omega
  · refine extractStridedSlice_apply _ w hs _ _ fun a => ?_
    match a with
    | ⟨0, _⟩ => rfl
    | ⟨1, _⟩ => show f.val = 0 + f.val; omega
    | ⟨2, _⟩ => show k.val = k.val + 0; omega
    | ⟨3, _⟩ => rfl

/-! ## The index maps over the grid

At the point (b, I, J) the first position window is at block (b, 0, I), the second at (b, 0, J), the coefficient
windows at block 0 and the output window at (b, 0, I, J); and every (b, 0, I, J) is some point's. -/

theorem hz4 : (![0, 0, 0, 0] : Fin 4 → ℕ) = fun _ => 0 := funext fun a => by fin_cases a <;> rfl
theorem hz3 : (![0, 0, 0] : Fin 3 → ℕ) = fun _ => 0 := funext fun a => by fin_cases a <;> rfl
theorem hz1 : (![0] : Fin 1 → ℕ) = fun _ => 0 := funext fun a => by fin_cases a <;> rfl

/-- The input windows' block indices in terms of the output window's, and the output's ranges. -/
theorem block_indices : ∀ t : Fin cfg0.N,
    win0_0.index t (0 : Fin 3) = win0_5.index t (0 : Fin 4)
    ∧ win0_0.index t (1 : Fin 3) = 0
    ∧ win0_0.index t (2 : Fin 3) = win0_5.index t (2 : Fin 4)
    ∧ win0_1.index t (0 : Fin 3) = win0_5.index t (0 : Fin 4)
    ∧ win0_1.index t (1 : Fin 3) = 0
    ∧ win0_1.index t (2 : Fin 3) = win0_5.index t (3 : Fin 4)
    ∧ win0_2.index t (0 : Fin 1) = 0
    ∧ win0_3.index t (0 : Fin 1) = 0
    ∧ win0_4.index t (0 : Fin 1) = 0
    ∧ win0_5.index t (1 : Fin 4) = 0
    ∧ win0_5.index t (0 : Fin 4) ≤ 15
    ∧ win0_5.index t (2 : Fin 4) ≤ 1
    ∧ win0_5.index t (3 : Fin 4) ≤ 1 :=
  (by decide +kernel : ∀ t : Fin grid0.N, _)

/-- Every block of the result is some point's. -/
theorem block_onto : ∀ (q0 : Fin 16) (q2 q3 : Fin 2), ∃ t : Fin cfg0.N, win0_5.index t = ![q0.val, 0, q2.val, q3.val] :=
  (by decide +kernel : ∀ (q0 : Fin 16) (q2 q3 : Fin 2), ∃ t : Fin grid0.N, win0_5.index t = ![q0.val, 0, q2.val, q3.val])

/-! ## What a point writes back

First over plain blocks: if the five blocks hold, at the coordinates the payload reads, the entries of the
argument arrays that the specification reads at the array index `i`, the payload at the block index is the
specification at `i`. Then at a grid point, where the blocks are the windows' and `i` is the block index's image. -/

open Cert.KernelIdeal.Payload in
/-- The payload at a block index `y` is the specification at an array index `i` once the five blocks agree with
    the argument arrays at the entries the two sides read. -/
theorem payload_eq_spec (T : FVec Ideal PairRelu.St .f32) (W : FVec Ideal PairRelu.Sw .f32)
    (x0 x1 : Vec Ideal S1x1x256 .f32) (x2 x3 x4 : Vec Ideal S32 .f32)
    (y : S1x32x256x256.Idx) (i : S16x32x512x512.Idx)
    (h0 : x0 (ix3 0 0 (y 2)) = T (ix2 (i 0) (i 2)))
    (h1 : x1 (ix3 0 0 (y 3)) = T (ix2 (i 0) (i 3)))
    (h2 : x2 (ix1 (y 1)) = W (ix4 0 (i 1) 0 0))
    (h3 : x3 (ix1 (y 1)) = W (ix4 0 (i 1) 1 0))
    (h4 : x4 (ix1 (y 1)) = W (ix4 0 (i 1) 2 0)) :
    k0_pay1 (F := Ideal) x0 x1 x2 x3 x4 y = PairRelu.pairRelu T W i := by
  refine (pay1_eq x0 x1 x2 x3 x4 y).trans ?_
  show PairRelu.entry _ _ _ _ _ = PairRelu.entry _ _ _ _ _
  rw [h0, h1, h2, h3, h4]

/-- An entry of the reshaped positions at an index with coordinates (b, _, i). -/
theorem positions_read (T : FVec Ideal PairRelu.St .f32) (h : S16x512.ShapeCasts S16x1x512)
    (k : S16x1x512.Idx) (b : Fin 16) (i : Fin 512) (hb : (k 0).val = b.val) (hi : (k 2).val = i.val) :
    shapeCast S16x1x512 T h k = T (ix2 b i) :=
  shapeCast_apply T h k (ix2 b i) (by
    have hu : (k 1).val < 1 := (k 1).isLt
    rw [Shape.rowMajor_val_three, Shape.rowMajor_val_two]
    show b.val * 512 + i.val = ((k 0).val * 1 + (k 1).val) * 512 + (k 2).val
    omega)

/-- An entry of column `kk` of the coefficients at an index with coordinate f. -/
theorem coef_read (W : FVec Ideal PairRelu.Sw .f32) (kk : Fin 3) (off : Fin 4 → ℕ) (hoff : off = ![0, 0, kk.val, 0])
    (hs : S1x32x3x1.Slices off S1x32x1x1) (h : S1x32x1x1.ShapeCasts S32) (k : S32.Idx) (f : Fin 32)
    (hf : (k 0).val = f.val) :
    shapeCast S32 (extractStridedSlice S1x32x1x1 off W hs) h k = W (ix4 0 f kk 0) := by
  have hk : k = ix1 f := funext fun a => Fin.ext (by
    match a with
    | ⟨0, _⟩ => exact hf)
  rw [hk]
  exact coef_apply W kk off hoff hs h f

/-- WHAT POINT `t` WRITES BACK is block `t` of the specification's function of the two argument arrays. -/
theorem flushed_eq (c : Dev nD) (t : Fin cfg0.N) :
    (dats (F := Ideal) m 0 c).flushed 5 t
      = ((cfg0.win 5).blk t).view.read (Elt Ideal)
          (PairRelu.pairRelu (m ((c : Thread nD τ).loc main_arg0)) (m ((c : Thread nD τ).loc main_arg1))) := by
  show (cfg0.win 5).cut (grid0.coords t) ((dats (F := Ideal) m 0 c).after 5 t) = _
  rw [after0_5]
  unfold outBlk
  rw [View.canon_unit_zero hz4]
  simp only [View.ld_unit_zero (S := S1x1x256) hz3, View.ld_unit_zero (S := S32) hz1]
  obtain ⟨e00, e01, e02, e10, e11, e12, e2, e3, e4, e51, r0, r2, r3⟩ := block_indices t
  funext j
  show k0_pay1 (F := Ideal) (iblk m c 0 t) (iblk m c 1 t) (iblk m c 2 t) (iblk m c 3 t) (iblk m c 4 t) j
      = PairRelu.pairRelu (m ((c : Thread nD τ).loc main_arg0)) (m ((c : Thread nD τ).loc main_arg1))
          (((cfg0.win 5).blk t).view.emb j)
  have hj0 : (j 0).val < 1 := (j 0).isLt
  have hj1 : (j 1).val < 32 := (j 1).isLt
  refine payload_eq_spec _ _ _ _ _ _ _ j _ ?_ ?_ ?_ ?_ ?_
  · -- the first position block: row b, columns 256 I + p
    show V m c main_v6 (((cfg0.win 0).blk t).view.emb (ix3 0 0 (j 2))) = _
    refine (congrFun (V_positions m c) _).trans ?_
    refine positions_read _ _ _ _ _ ?_ ?_
    · show win0_0.index t (0 : Fin 3) * 1 + 1 * 0 = win0_5.index t (0 : Fin 4) * 1 + 1 * (j 0).val
      omega
    · show win0_0.index t (2 : Fin 3) * 256 + 1 * (j 2).val = win0_5.index t (2 : Fin 4) * 256 + 1 * (j 2).val
      omega
  · -- the second position block: row b, columns 256 J + q
    show V m c main_v6 (((cfg0.win 1).blk t).view.emb (ix3 0 0 (j 3))) = _
    refine (congrFun (V_positions m c) _).trans ?_
    refine positions_read _ _ _ _ _ ?_ ?_
    · show win0_1.index t (0 : Fin 3) * 1 + 1 * 0 = win0_5.index t (0 : Fin 4) * 1 + 1 * (j 0).val
      omega
    · show win0_1.index t (2 : Fin 3) * 256 + 1 * (j 3).val = win0_5.index t (3 : Fin 4) * 256 + 1 * (j 3).val
      omega
  · -- the first slopes
    show V m c main_v1 (((cfg0.win 2).blk t).view.emb (ix1 (j 1))) = _
    refine (congrFun (V_coef0 m c) _).trans ?_
    refine coef_read _ 0 _ rfl _ _ _ _ ?_
    show win0_2.index t (0 : Fin 1) * 32 + 1 * (j 1).val = win0_5.index t (1 : Fin 4) * 32 + 1 * (j 1).val
    omega
  · -- the second slopes
    show V m c main_v3 (((cfg0.win 3).blk t).view.emb (ix1 (j 1))) = _
    refine (congrFun (V_coef1 m c) _).trans ?_
    refine coef_read _ 1 _ rfl _ _ _ _ ?_
    show win0_3.index t (0 : Fin 1) * 32 + 1 * (j 1).val = win0_5.index t (1 : Fin 4) * 32 + 1 * (j 1).val
    omega
  · -- the offsets
    show V m c main_v5 (((cfg0.win 4).blk t).view.emb (ix1 (j 1))) = _
    refine (congrFun (V_coef2 m c) _).trans ?_
    refine coef_read _ 2 _ rfl _ _ _ _ ?_
    show win0_4.index t (0 : Fin 1) * 32 + 1 * (j 1).val = win0_5.index t (1 : Fin 4) * 32 + 1 * (j 1).val
    omega

/-! ## The blocks tile the result -/

/-- An index of the result is in point `t`'s block iff each coordinate is in the block's range on its axis. -/
theorem mem_block (t : Fin cfg0.N) (i : S16x32x512x512.Idx) :
    i ∈ ((cfg0.win 5).blk t).view.set ↔ ∀ a : Fin 4, win0_5.index t a * S1x32x256x256.size a ≤ (i a).val
      ∧ (i a).val < win0_5.index t a * S1x32x256x256.size a + S1x32x256x256.size a := by
  show i ∈ ((View.whole main_v7).slice (win0_5.rect t)).set ↔ _
  rw [View.set_slice_whole, Rect.mem_set_unit]
  exact Iff.rfl

/-- Every index (b, f, i, j) of the result is in the block of the point whose output block index is
    (b, 0, i / 256, j / 256). -/
theorem covered (i : S16x32x512x512.Idx) :
    ∃ t : Fin cfg0.N, (cfg0.win 5).flush t = true ∧ i ∈ ((cfg0.win 5).blk t).view.set := by
  have hi0 : (i 0).val < 16 := (i 0).isLt
  have hi1 : (i 1).val < 32 := (i 1).isLt
  have hi2 : (i 2).val < 512 := (i 2).isLt
  have hi3 : (i 3).val < 512 := (i 3).isLt
  obtain ⟨t, ht⟩ := block_onto ⟨(i 0).val, hi0⟩ ⟨(i 2).val / 256, by omega⟩ ⟨(i 3).val / 256, by omega⟩
  have q0 : win0_5.index t (0 : Fin 4) = (i 0).val := congrFun ht 0
  have q1 : win0_5.index t (1 : Fin 4) = 0 := congrFun ht 1
  have q2 : win0_5.index t (2 : Fin 4) = (i 2).val / 256 := congrFun ht 2
  have q3 : win0_5.index t (3 : Fin 4) = (i 3).val / 256 := congrFun ht 3
  refine ⟨t, flush0_5 t, ?_⟩
  rw [mem_block]
  intro a
  match a with
  | ⟨0, _⟩ => show win0_5.index t (0 : Fin 4) * 1 ≤ (i 0).val ∧ (i 0).val < win0_5.index t (0 : Fin 4) * 1 + 1; omega
  | ⟨1, _⟩ => show win0_5.index t (1 : Fin 4) * 32 ≤ (i 1).val ∧ (i 1).val < win0_5.index t (1 : Fin 4) * 32 + 32; omega
  | ⟨2, _⟩ => show win0_5.index t (2 : Fin 4) * 256 ≤ (i 2).val ∧ (i 2).val < win0_5.index t (2 : Fin 4) * 256 + 256; omega
  | ⟨3, _⟩ => show win0_5.index t (3 : Fin 4) * 256 ≤ (i 3).val ∧ (i 3).val < win0_5.index t (3 : Fin 4) * 256 + 256; omega

/-! ## The result array after the region -/

/-- THE RESULT ARRAY after the last point is the specification's function of the two argument arrays. -/
theorem final5 (c : Dev nD) :
    (dats (F := Ideal) m 0 c).arrAt 5 cfg0.N
      = PairRelu.pairRelu (m ((c : Thread nD τ).loc main_arg0)) (m ((c : Thread nD τ).loc main_arg1)) :=
  (dats (F := Ideal) m 0 c).arrAt_eq_of_cover 5 _ (fun t _ => flushed_eq m c t) covered

end Cert.KernelIdeal.HandValue

end
-- ==== Proof.RefValue.lean ====
/-
  The reference's result, index by index.

  The reference program builds its result from the two argument arrays by slicing the three coefficient columns
  out of `w`, broadcasting each against the positions array `t` along the two pair axes, and taking the rectified
  sum; its last operation only regroups the two pair axes into one. Read at an index `(b, f, i, j)`, every layout
  operation on the way moves the index and no value, so the entry is

      max ((w[0, f, 0, 0] * t[b, i] + w[0, f, 1, 0] * t[b, j]) + w[0, f, 2, 0]) 0,

  which is the shared specification `PairRelu.pairRelu` at that index, in the same association of the sum.
  `val22_eq` says so for the whole array before the regrouping, and `run` restates the reference's run with that
  function in place of the operations' composed term.
-/
import proofs.«100812_j32358283608329_1_alg».proof.Proof.Gen.ReferenceIdeal.Run
import proofs.«100812_j32358283608329_1_alg».proof.Proof.Gen.ReferenceIdeal.Read
import proofs.«100812_j32358283608329_1_alg».proof.Proof.Spec
import Idealize.ShloMosaic.Lib.ValueIdx

noncomputable section

namespace Cert.ReferenceIdeal.RefValue

open Cert.ReferenceIdeal Cert.ReferenceIdeal.Gen Idealize.ShloMosaic Idealize.ShloMosaic.TcCoe Idealize.SL.Sem Idealize.ShloMosaic.ValueIdx

/-! ## Where each operand is read

Each chain of layout operations between an argument and the rectified sum, followed backwards from the result
index `(b, f, i, j)`: the coefficient chains end at `(0, f, k, 0)` for the column `k` they slice, the two position
chains at `(b, i)` and `(b, j)`. The only arithmetic on the way is the regrouping of a length-32 axis,
`f / 1 % 32 = f`. -/

/-- The first slope is read at `(0, f, 0, 0)`. -/
theorem idx_w0 (b : Fin 16) (f : Fin 32) (i j : Fin 512) :
    Read.idx_main_v0 (Read.idx_main_v1 (Read.idx_main_v6 (Read.idx_main_v8 (Read.idx_main_v16 (ix4 b f i j)))))
      = ix4 0 f 0 0 := by
  funext a
  match a with
  | ⟨0, _⟩ => exact Fin.ext rfl
  | ⟨1, _⟩ => exact Fin.ext (by have hf : f.val < 32 := f.isLt; show f.val / 1 % 32 = f.val; omega)
  | ⟨2, _⟩ => exact Fin.ext rfl
  | ⟨3, _⟩ => exact Fin.ext rfl

/-- The first position is read at `(b, i)`. -/
theorem idx_ti (b : Fin 16) (f : Fin 32) (i j : Fin 512) :
    Read.idx_main_v7 (Read.idx_main_v9 (Read.idx_main_v16 (ix4 b f i j))) = ix2 b i := by
  funext a
  match a with
  | ⟨0, _⟩ => exact Fin.ext rfl
  | ⟨1, _⟩ => exact Fin.ext rfl

/-- The second slope is read at `(0, f, 1, 0)`. -/
theorem idx_w1 (b : Fin 16) (f : Fin 32) (i j : Fin 512) :
    Read.idx_main_v2 (Read.idx_main_v3 (Read.idx_main_v11 (Read.idx_main_v13 (Read.idx_main_v17 (ix4 b f i j)))))
      = ix4 0 f 1 0 := by
  funext a
  match a with
  | ⟨0, _⟩ => exact Fin.ext rfl
  | ⟨1, _⟩ => exact Fin.ext (by have hf : f.val < 32 := f.isLt; show f.val / 1 % 32 = f.val; omega)
  | ⟨2, _⟩ => exact Fin.ext rfl
  | ⟨3, _⟩ => exact Fin.ext rfl

/-- The second position is read at `(b, j)`. -/
theorem idx_tj (b : Fin 16) (f : Fin 32) (i j : Fin 512) :
    Read.idx_main_v12 (Read.idx_main_v14 (Read.idx_main_v17 (ix4 b f i j))) = ix2 b j := by
  funext a
  match a with
  | ⟨0, _⟩ => exact Fin.ext rfl
  | ⟨1, _⟩ => exact Fin.ext rfl

/-- The offset is read at `(0, f, 2, 0)`. -/
theorem idx_w2 (b : Fin 16) (f : Fin 32) (i j : Fin 512) :
    Read.idx_main_v4 (Read.idx_main_v5 (Read.idx_main_v19 (Read.idx_main_v20 (ix4 b f i j))))
      = ix4 0 f 2 0 := by
  funext a
  match a with
  | ⟨0, _⟩ => exact Fin.ext rfl
  | ⟨1, _⟩ => exact Fin.ext (by have hf : f.val < 32 := f.isLt; show f.val / 1 % 32 = f.val; omega)
  | ⟨2, _⟩ => exact Fin.ext rfl
  | ⟨3, _⟩ => exact Fin.ext rfl

/-! ## The rectified sum is the specification -/

/-- Before its last regrouping the reference's value is `PairRelu.pairRelu` of the two arguments: at `(b, f, i, j)`
    the operations read through to the three coefficients of `f` and the positions `i` and `j` of row `b`, and
    the arithmetic left is the specification's entry, sum association and zero word included. -/
theorem val22_eq (x0 : (⟨S16x512, .f32⟩ : BufTy).Contents (Elt Ideal)) (x1 : (⟨S1x32x3x1, .f32⟩ : BufTy).Contents (Elt Ideal)) :
    Read.val_main_v22 (F := Ideal) x0 x1 = PairRelu.pairRelu x0 x1 := by
  funext y
  obtain ⟨b, f, i, j, rfl⟩ : ∃ (b : Fin 16) (f : Fin 32) (i j : Fin 512), y = ix4 b f i j :=
    ⟨_, _, _, _, eq_ix4 y⟩
  rw [Read.val_main_v22_apply, Read.val_main_v21_apply, Read.val_main_v18_apply,
    Read.val_main_v16_apply, Read.val_main_v10_apply,
    Read.val_main_v8_apply, Read.val_main_v6_apply, Read.val_main_v1_apply, Read.val_main_v0_apply,
    Read.val_main_v9_apply, Read.val_main_v7_apply,
    Read.val_main_v17_apply, Read.val_main_v15_apply,
    Read.val_main_v13_apply, Read.val_main_v11_apply, Read.val_main_v3_apply, Read.val_main_v2_apply,
    Read.val_main_v14_apply, Read.val_main_v12_apply,
    Read.val_main_v20_apply, Read.val_main_v19_apply, Read.val_main_v5_apply, Read.val_main_v4_apply,
    Read.val_main_call0_v0_apply, Read.val_main_call0_cst_apply,
    idx_w0, idx_ti, idx_w1, idx_tj, idx_w2]
  rfl

/-! ## The run, restated -/

/-- The reference's run with the specification in place of the operations' composed term: the result array ends
    at the regrouping of `PairRelu.pairRelu` of the arguments' launch contents, the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v23)
          = shapeCast S16x32x262144 (PairRelu.pairRelu (m ((c.tc : Thread nD τ).loc main_arg0)) (m ((c.tc : Thread nD τ).loc main_arg1)))
              shapeCasts_S16x32x512x512_S16x32x262144
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono
    (fun _ h c => ⟨(h c).1.trans ((Read.val_main_v23_eq _ _).trans
        (congrArg (fun v => shapeCast S16x32x262144 v shapeCasts_S16x32x512x512_S16x32x262144) (val22_eq _ _))),
      (h c).2⟩)
    (Cert.ReferenceIdeal.Value.run (F := Ideal) m ρ)

end Cert.ReferenceIdeal.RefValue

end
-- ==== Proof.lean ====
/-
  The certificate of the pairwise rectified-affine kernel: for positions `t : f32[16, 512]` and per-filter
  coefficients `w : f32[1, 32, 3, 1]`, both programs compute, for every batch row `b`, filter `f` and pair of
  positions `(i, j)`,

      max ((w[0, f, 0, 0] * t[b, i] + w[0, f, 1, 0] * t[b, j]) + w[0, f, 2, 0]) 0,

  reshaped to [16, 32, 512 * 512]. The kernel does it block by block — one pipelined region over the grid
  [16, 2, 2], each point writing the [1, 32, 256, 256] block of its batch row and its pair of 256-wide position
  blocks, from two blocks of the positions array (two windows on ONE array) and the three coefficient vectors —, the
  reference by whole-array broadcasts. The two sides apply the same operations in the same association, so at the
  ideal instance the comparison needs no law of the extended reals and never opens the precondition.

  The frames of the two kernel programs (the word-level one and its idealization, one text up to the namespace) are
  one hand-written run, generic in the float instance: the body's triple, the pipeline's proof data with the shared
  array split between its two windows at the two halves of the full share, and @main as host lines, the region,
  a host line. That run also names the final result as the reshape of what the region's write-backs left, which is
  the specification's table (the kernel's stored value read at an index; the 64 blocks covering the array). The
  reference's frame and value are its generated run read one operation at a time. The idealization rewrote no
  operation, so `preserves` states nothing.
-/
import proofs.«100812_j32358283608329_1_alg».proof.Defs
import proofs.«100812_j32358283608329_1_alg».proof.Proof.Gen.Kernel
import proofs.«100812_j32358283608329_1_alg».proof.Proof.Gen.KernelIdeal
import proofs.«100812_j32358283608329_1_alg».proof.Proof.Gen.ReferenceIdeal
import proofs.«100812_j32358283608329_1_alg».proof.Proof.Gen.Pre_finite_inputs
import proofs.«100812_j32358283608329_1_alg».proof.Proof.KLaunch
import proofs.«100812_j32358283608329_1_alg».proof.Proof.KILaunch
import proofs.«100812_j32358283608329_1_alg».proof.Proof.KIValue
import proofs.«100812_j32358283608329_1_alg».proof.Proof.RefValue

noncomputable section

namespace Cert.Proof

open Idealize.ShloMosaic Idealize.ShloMosaic.TcCoe Idealize.SL.Sem

/-- The word-level kernel runs to the end and leaves its arguments unchanged. -/
theorem frame_kernel : Cert.frame_Kernel := fun m ρ _ => Cert.Kernel.Hand.frame (F := Bits) m ρ

/-- So does its idealization. -/
theorem frame_kernelIdeal : Cert.frame_KernelIdeal := fun m ρ _ => Cert.KernelIdeal.Hand.frame (F := Ideal) m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments, both idealized programs end with the reshape of the specification's table
    of the arguments: the kernel by its blocks covering the table, the reference operation by operation. -/
theorem algebraic : Cert.algebraic_KernelIdeal_ReferenceIdeal := by
  intro m ρ m' ρ' _ hagree
  refine ⟨fun c => shapeCast Cert.KernelIdeal.S16x32x262144
      (PairRelu.pairRelu (m ((c.tc : Thread Cert.KernelIdeal.nD Cert.KernelIdeal.τ).loc Cert.KernelIdeal.main_arg0))
        (m ((c.tc : Thread Cert.KernelIdeal.nD Cert.KernelIdeal.τ).loc Cert.KernelIdeal.main_arg1)))
      Cert.KernelIdeal.Facts₀.shapeCasts_S16x32x512x512_S16x32x262144, ?_, ?_⟩
  · refine (θ_run Cert.KernelIdeal.defs _ _).mono (fun _ h c => ⟨?_, (h c).2⟩) (Cert.KernelIdeal.Hand.run_blocks (F := Ideal) m ρ)
    rw [(h c).1, Cert.KernelIdeal.HandValue.final5]
  · refine (θ_run Cert.ReferenceIdeal.defs _ _).mono (fun _ h c => ⟨?_, (h c).2⟩) (Cert.ReferenceIdeal.RefValue.run m' ρ')
    rw [(h c).1, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
